-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S11264x2048 : Shape := ⟨2, ![11264, 2048]⟩
abbrev S2048x5632 : Shape := ⟨2, ![2048, 5632]⟩
abbrev S5632 : Shape := ⟨1, ![5632]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v13 : IVec S_ 1) (main_v16 : IVec S5632 1) : IVec S_ 1 :=
  let main_c_5 : IVec S_ 1 := constantI S_ 1 1#1
  let main_v17 : IVec S_ 1 := (fun x v => Host.reduce IntOp.andi x v reducesTo_S5632_S_d0 h_S_) main_v16 main_c_5
  let main_v18 : IVec S_ 1 := andi main_v13 main_v17
  main_v18

def fn {F : FTy → Type} [FloatOps F] (main_arg0 : FVec F S4x2048x2048 .f32) (main_arg1 : FVec F S11264x2048 .f32) (main_arg2 : FVec F S2048x5632 .f32) (main_arg3 : FVec F S5632 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S5632 .f32 := Host.absf main_arg3
  let main_cst_4 : FVec F S_ .f32 := constant S_ .f32 0x7F800000#32
  let main_v15 : FVec F S5632 .f32 := broadcastInDim S5632 ![] bcast_S_S5632 main_cst_4
  let main_v16 : IVec S5632 1 := cmpf .olt main_v14 main_v15
  fn_part1 (F := F) main_v13 main_v16
-- ==== Kernel.lean ====
abbrev S4x2048x2048 : Shape := ⟨3, ![4, 2048, 2048]⟩
abbrev S11264x2048 : Shape := ⟨2, ![11264, 2048]⟩
abbrev S2048x5632 : Shape := ⟨2, ![2048, 5632]⟩
abbrev S5632 : Shape := ⟨1, ![5632]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S8192x5632 : Shape := ⟨2, ![8192, 5632]⟩
abbrev S1024x2048 : Shape := ⟨2, ![1024, 2048]⟩
abbrev S1024x512 : Shape := ⟨2, ![1024, 512]⟩
abbrev S256x5632 : Shape := ⟨2, ![256, 5632]⟩
abbrev S256 : Shape := ⟨1, ![256]⟩
abbrev S256x1 : Shape := ⟨2, ![256, 1]⟩
abbrev S1x5632 : Shape := ⟨2, ![1, 5632]⟩
abbrev S512x5632 : Shape := ⟨2, ![512, 5632]⟩
abbrev S512x512 : Shape := ⟨2, ![512, 512]⟩

abbrev nBuf : Space → Nat
  | .hbm => 12
  | .vmem => 23
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S5632, .f32⟩
  | .hbm, ⟨4, _⟩ => ⟨S8192x2048, .f32⟩
  | .hbm, ⟨5, _⟩ => ⟨S11264x2048, .bf16⟩
  | .hbm, ⟨6, _⟩ => ⟨S2048x5632, .bf16⟩
  | .hbm, ⟨7, _⟩ => ⟨S8192x2048, .bf16⟩
  | .hbm, ⟨8, _⟩ => ⟨S8192x5632, .bf16⟩
  | .hbm, ⟨9, _⟩ => ⟨S8192x5632, .bf16⟩
  | .hbm, ⟨10, _⟩ => ⟨S8192x2048, .f32⟩
  | .hbm, ⟨11, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x512, .bf16⟩
  | .local _ .vmem, ⟨11, _⟩ => ⟨S1024x512, .bf16⟩
  | .local _ .vmem, ⟨12, _⟩ => ⟨S256x5632, .bf16⟩
  | .local _ .vmem, ⟨13, _⟩ => ⟨S256x5632, .bf16⟩
  | .local _ .vmem, ⟨14, _⟩ => ⟨S5632, .f32⟩
  | .local _ .vmem, ⟨15, _⟩ => ⟨S256x5632, .bf16⟩
  | .local _ .vmem, ⟨16, _⟩ => ⟨S256x5632, .bf16⟩
  | .local _ .vmem, ⟨17, _⟩ => ⟨S512x5632, .bf16⟩
  | .local _ .vmem, ⟨18, _⟩ => ⟨S512x5632, .bf16⟩
  | .local _ .vmem, ⟨19, _⟩ => ⟨S512x5632, .bf16⟩
  | .local _ .vmem, ⟨20, _⟩ => ⟨S512x5632, .bf16⟩
  | .local _ .vmem, ⟨21, _⟩ => ⟨S512x512, .f32⟩
  | .local _ .vmem, ⟨22, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5632 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x5632 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S256x5632_S256x5632_0_0 : ∀ a, (![0, 0] : Fin 2 → Nat) a + S256x5632.size a ≤ S256x5632.size a
  h_S256x5632 : 0 < S256x5632.numel
  shapeCasts_S256x5632_S256x5632 : S256x5632.ShapeCasts S256x5632
  inb_S5632_S5632_0 : ∀ a, (![0] : Fin 1 → Nat) a + S5632.size a ≤ S5632.size a
  h_S5632 : 0 < S5632.numel
  reduces_S256x5632_S256 : S256x5632.Reduces [1] S256
  shapeCasts_S256_S256x1 : S256.ShapeCasts S256x1
  broadcasts_S256x1_S256x5632 : S256x1.Broadcasts S256x5632
  shapeCasts_S5632_S1x5632 : S5632.ShapeCasts S1x5632
  broadcasts_S1x5632_S256x5632 : S1x5632.Broadcasts S256x5632
  packedbf16_S256x5632_S256x5632_0_0 : (Rect.unit (s := S256x5632) ![0, 0] S256x5632.size inb_S256x5632_S256x5632_0_0).PackedRows (EltTy.packing .bf16)
  inb_S512x5632_S512x5632_0_0 : ∀ a, (![0, 0] : Fin 2 → Nat) a + S512x5632.size a ≤ S512x5632.size a
  h_S512x5632 : 0 < S512x5632.numel
  shapeCasts_S512x5632_S512x5632 : S512x5632.ShapeCasts S512x5632
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S1024x2048_S512x2048_S1024x512_1_1_0_0_n_n_wf : DotDims.WF S1024x2048 S512x2048 S1024x512 [1] [1] [0] [0] [] []
  dot_S512x5632_S512x5632_S512x512_1_1_0_0_n_n_wf : DotDims.WF S512x5632 S512x5632 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S11264x2048.size a
  hwx1_1 : ∀ i : grid1.Coords, EltTy.bits .bf16 = 32 ∨ (Rect.block (s := S11264x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S11264x2048.size a
  hwx1_2 : ∀ i : grid1.Coords, EltTy.bits .bf16 = 32 ∨ (Rect.block (s := S11264x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x5632.size a
  hwx1_3 : ∀ i : grid1.Coords, EltTy.bits .bf16 = 32 ∨ (Rect.block (s := S8192x5632) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x5632.size a ≤ S8192x5632.size a
  hwx2_0 : ∀ i : grid2.Coords, EltTy.bits .bf16 = 32 ∨ (Rect.block (s := S8192x5632) S256x5632.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5632.size a ≤ S5632.size a
  hwx2_1 : ∀ i : grid2.Coords, EltTy.bits .f32 = 32 ∨ (Rect.block (s := S5632) S5632.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x5632.size a ≤ S8192x5632.size a
  hwx2_2 : ∀ i : grid2.Coords, EltTy.bits .bf16 = 32 ∨ (Rect.block (s := S8192x5632) S256x5632.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x5632.size a ≤ S8192x5632.size a
  hwx3_0 : ∀ i : grid3.Coords, EltTy.bits .bf16 = 32 ∨ (Rect.block (s := S8192x5632) S512x5632.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x5632.size a ≤ S2048x5632.size a
  hwx3_1 : ∀ i : grid3.Coords, EltTy.bits .bf16 = 32 ∨ (Rect.block (s := S2048x5632) S512x5632.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S8192x2048.size a
  hwx3_2 : ∀ i : grid3.Coords, EltTy.bits .f32 = 32 ∨ (Rect.block (s := S8192x2048) S512x512.size (cc3_transform_2 i) (hinb3_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S512x5632_S512x5632_S512x512_1_1_0_0_n_n : DotDims S512x5632 S512x5632 S512x512 where
  lhsContracting := [1]
  rhsContracting := [1]
  lhsNonContracting := [0]
  rhsNonContracting := [0]
  lhsBatch := []
  rhsBatch := []
  wf := dot_S512x5632_S512x5632_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S256x5632.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5632.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S256x5632.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S512x5632.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S512x5632.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x2048x2048 : Shape := ⟨3, ![4, 2048, 2048]⟩
abbrev S11264x2048 : Shape := ⟨2, ![11264, 2048]⟩
abbrev S2048x5632 : Shape := ⟨2, ![2048, 5632]⟩
abbrev S5632 : Shape := ⟨1, ![5632]⟩
abbrev S_ : Shape := ⟨0, ![]⟩
abbrev S4x2048 : Shape := ⟨2, ![4, 2048]⟩
abbrev S4x2048x1 : Shape := ⟨3, ![4, 2048, 1]⟩
abbrev S4x2048x11264 : Shape := ⟨3, ![4, 2048, 11264]⟩
abbrev S4x2048x5632 : Shape := ⟨3, ![4, 2048, 5632]⟩
abbrev S1x1x5632 : Shape := ⟨3, ![1, 1, 5632]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S5632, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S_, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x5632, .f32⟩
  | .hbm, ⟨48, _⟩ => ⟨S4x2048x5632, .f32⟩
  | .hbm, ⟨49, _⟩ => ⟨S1x1x5632, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S_, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x5632, .f32⟩
  | .hbm, ⟨64, _⟩ => ⟨S4x2048x5632, .f32⟩
  | .hbm, ⟨65, _⟩ => ⟨S4x2048x5632, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4x2048x5632, .f32⟩
  | .hbm, ⟨70, _⟩ => ⟨S4x2048x5632, .f32⟩
  | .hbm, ⟨71, _⟩ => ⟨S_, .f32⟩
  | .hbm, ⟨72, _⟩ => ⟨S4x2048x5632, .f32⟩
  | .hbm, ⟨73, _⟩ => ⟨S4x2048x5632, .f32⟩
  | .hbm, ⟨74, _⟩ => ⟨S4x2048x5632, .f32⟩
  | .hbm, ⟨75, _⟩ => ⟨S4x2048x5632, .f32⟩
  | .hbm, ⟨76, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call3_cst : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_call4_v0 : Ref sig .tc := ⟨.hbm, 57, rfl⟩
abbrev main_call4_v1 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_cst_11 : Ref sig .tc := ⟨.hbm, 67, rfl⟩
abbrev main_call6_v0 : Ref sig .tc := ⟨.hbm, 68, rfl⟩
abbrev main_call6_v1 : Ref sig .tc := ⟨.hbm, 69, rfl⟩
abbrev main_call6_v2 : Ref sig .tc := ⟨.hbm, 70, rfl⟩
abbrev main_call6_v3 : Ref sig .tc := ⟨.hbm, 71, rfl⟩
abbrev main_call6_v4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  slices_S4x2048x11264_S4x2048x5632_0_0_0 : S4x2048x11264.Slices ![0, 0, 0] S4x2048x5632
  slices_S4x2048x11264_S4x2048x5632_0_0_5632 : S4x2048x11264.Slices ![0, 0, 5632] S4x2048x5632
  bcast_S_S4x2048x5632 : S_.BroadcastsInDim S4x2048x5632 (![] : Fin 0 → Fin S4x2048x5632.rank)
  reducesTo_S4x2048x5632_S4x2048_d2 : S4x2048x5632.ReducesTo [2] S4x2048
  bcast_S4x2048x1_S4x2048x5632_0_1_2 : S4x2048x1.BroadcastsInDim S4x2048x5632 (![0, 1, 2] : Fin 3 → Fin S4x2048x5632.rank)
  bcast_S5632_S1x1x5632_2 : S5632.BroadcastsInDim S1x1x5632 (![2] : Fin 1 → Fin S1x1x5632.rank)
  bcast_S1x1x5632_S4x2048x5632_0_1_2 : S1x1x5632.BroadcastsInDim S4x2048x5632 (![0, 1, 2] : Fin 3 → Fin S4x2048x5632.rank)
  dot_S4x2048x2048_S11264x2048_S4x2048x11264_2_1_01_0_n_n_wf : DotDims.WF S4x2048x2048 S11264x2048 S4x2048x11264 [2] [1] [0, 1] [0] [] []
  dot_S4x2048x5632_S2048x5632_S4x2048x2048_2_1_01_0_n_n_wf : DotDims.WF S4x2048x5632 S2048x5632 S4x2048x2048 [2] [1] [0, 1] [0] [] []

variable [Facts₀]

def dot_S4x2048x2048_S11264x2048_S4x2048x11264_2_1_01_0_n_n : DotDims S4x2048x2048 S11264x2048 S4x2048x11264 where
  lhsContracting := [2]
  rhsContracting := [1]
  lhsNonContracting := [0, 1]
  rhsNonContracting := [0]
  lhsBatch := []
  rhsBatch := []
  wf := dot_S4x2048x2048_S11264x2048_S4x2048x11264_2_1_01_0_n_n_wf
def dot_S4x2048x5632_S2048x5632_S4x2048x2048_2_1_01_0_n_n : DotDims S4x2048x5632 S2048x5632 S4x2048x2048 where
  lhsContracting := [2]
  rhsContracting := [1]
  lhsNonContracting := [0, 1]
  rhsNonContracting := [0]
  lhsBatch := []
  rhsBatch := []
  wf := dot_S4x2048x5632_S2048x5632_S4x2048x2048_2_1_01_0_n_n_wf

class Facts : Prop extends Facts₀ where

variable [Facts]
-- ==== Proof.K.Reg0.lean ====
/-
  Region 0 of @main (the per-row quantisation kernel, grid of 16 row blocks), at any float instance and at
  any contents `V` of the core's buffers when the region is entered: what each staging buffer holds when
  the body runs, what the body leaves in the output's buffer (its one whole-block store, as a function of
  the input block), the body's triple, the pipeline's proof data and its body obligation.
-/
import proofs.«179057_j32478542693202_1_alg».proof.Proof.Gen.Kernel.Launch
import proofs.«179057_j32478542693202_1_alg».proof.Proof.Gen.Kernel.Skeleton
import proofs.«179057_j32478542693202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512×2048 block: the one rectangle the body loads and stores through. -/
abbrev r0 : Rect S512x2048 := Rect.unit (s := S512x2048) ![0, 0] S512x2048.size inb_S512x2048_S512x2048_0_0

/-- What the body leaves in the output window's staging buffer: its one store, of the quantised rows of the input block. -/
def out0_1 (x0 : Vec F S512x2048 .f32) : Vec F S512x2048 .bf16 :=
  View.canon [⟨r0, k0_pay1 (View.ld x0 r0)⟩]

/-- That store covers the buffer. -/
theorem cover0_1 (p0 : Vec F S512x2048 .bf16) (y : S512x2048.Idx) :
    ∃ pc ∈ ([⟨r0, p0⟩] : List (View.Piece (Elt F) S512x2048 .bf16)), y ∈ pc.1.set :=
  View.cover_of_tiled [⟨r0, p0⟩] S512x2048.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S512x2048 .f32) (harg1 : arg1.IsWhole) (arg2 : Memref sig .tc .vmem S512x2048 .bf16) (harg2 : arg2.IsWhole)
    (x0 : Vec F S512x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body the input's
    buffer at its block and the output's at `out0_1` of it; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Reg2.lean ====
/-
  Region 2 of @main (the row-wise RMS normalisation, scaling by the weight vector and per-row quantisation of a
  256-row block; grid of 32 row blocks), at any float instance and at any contents `V` of the core's buffers when the
  region is entered: what each staging buffer holds when the body runs, what the body leaves in the output's buffer,
  the body's triple, the pipeline's proof data and its body obligation.
-/
import proofs.«179057_j32478542693202_1_alg».proof.Proof.Gen.Kernel.Launch
import proofs.«179057_j32478542693202_1_alg».proof.Proof.Gen.Kernel.Skeleton
import proofs.«179057_j32478542693202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 256x5632 block as one rectangle. -/
abbrev rect2_S256x5632 : Rect S256x5632 := Rect.unit (s := S256x5632) ![0, 0] S256x5632.size inb_S256x5632_S256x5632_0_0
/-- The whole 5632 block as one rectangle. -/
abbrev rect2_S5632 : Rect S5632 := Rect.unit (s := S5632) ![0] S5632.size inb_S5632_S5632_0

/-- What the body leaves in the output window's staging buffer: its one store, the normalised and quantised rows. -/
def out2_2 (x0 : Vec F S256x5632 .bf16) (x1 : Vec F S5632 .f32) : Vec F S256x5632 .bf16 :=
  View.canon [⟨rect2_S256x5632, k2_pay1 (View.ld x0 rect2_S256x5632) (View.ld x1 rect2_S5632)⟩]

/-- That store covers the buffer. -/
theorem cover2_2 (p0 : Vec F S256x5632 .bf16) (y : S256x5632.Idx) :
    ∃ pc ∈ ([⟨rect2_S256x5632, p0⟩] : List (View.Piece (Elt F) S256x5632 .bf16)), y ∈ pc.1.set :=
  View.cover_of_tiled [⟨rect2_S256x5632, p0⟩] S256x5632.size (by rfl) y

set_option maxHeartbeats 1000000 in
/-- The body on whole staging memrefs, the inputs' at contents `x…` and the output's at anything, runs to the
    continuation with the inputs' as they were and the output's at `out2_2` of them. -/
theorem sound_kernel2 (c : Dev nD) (E : Set ℕ) (i : grid2.Coords) (a0 : Memref sig .tc .vmem S256x5632 .bf16) (h0 : a0.IsWhole) (a1 : Memref sig .tc .vmem S5632 .f32) (h1 : a1.IsWhole) (a2 : Memref sig .tc .vmem S256x5632 .bf16) (h2 : a2.IsWhole)
    (x0 : Vec F S256x5632 .bf16) (x1 : Vec F S5632 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__normquant_kernel i a0 h0 a1 h1 a2 h2) K := by
  simp only [cc2__normquant_kernel_eq_skeleton]; unfold cc2__normquant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body each input's buffer at
    its block and the output's at `out2_2` of them; the invariant is the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Reg3.lean ====
/-
  Region 3 of @main (the product of a 512-row block with the transpose of a 512-row block of the second weight
  array; grid 16 × 4), at any float instance and at any contents `V` of the core's buffers when the region is entered:
  what each staging buffer holds when the body runs, what the body leaves in the output's buffer, the body's triple,
  the pipeline's proof data and its body obligation.
-/
import proofs.«179057_j32478542693202_1_alg».proof.Proof.Gen.Kernel.Launch
import proofs.«179057_j32478542693202_1_alg».proof.Proof.Gen.Kernel.Skeleton
import proofs.«179057_j32478542693202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 512x5632 block as one rectangle. -/
abbrev rect3_S512x5632 : Rect S512x5632 := Rect.unit (s := S512x5632) ![0, 0] S512x5632.size inb_S512x5632_S512x5632_0_0
/-- The whole 512x512 block as one rectangle. -/
abbrev rect3_S512x512 : Rect S512x512 := Rect.unit (s := S512x512) ![0, 0] S512x512.size inb_S512x512_S512x512_0_0

/-- What the body leaves in the output window's staging buffer: its one store, the matrix product of the two input blocks. -/
def out3_2 (x0 : Vec F S512x5632 .bf16) (x1 : Vec F S512x5632 .bf16) : Vec F S512x512 .f32 :=
  View.canon [⟨rect3_S512x512, k3_pay1 (View.ld x0 rect3_S512x5632) (View.ld x1 rect3_S512x5632)⟩]

/-- That store covers the buffer. -/
theorem cover3_2 (p0 : Vec F S512x512 .f32) (y : S512x512.Idx) :
    ∃ pc ∈ ([⟨rect3_S512x512, p0⟩] : List (View.Piece (Elt F) S512x512 .f32)), y ∈ pc.1.set :=
  View.cover_of_tiled [⟨rect3_S512x512, p0⟩] S512x512.size (by rfl) y

set_option maxHeartbeats 1000000 in
/-- The body on whole staging memrefs, the inputs' at contents `x…` and the output's at anything, runs to the
    continuation with the inputs' as they were and the output's at `out3_2` of them. -/
theorem sound_kernel3 (c : Dev nD) (E : Set ℕ) (i : grid3.Coords) (a0 : Memref sig .tc .vmem S512x5632 .bf16) (h0 : a0.IsWhole) (a1 : Memref sig .tc .vmem S512x5632 .bf16) (h1 : a1.IsWhole) (a2 : Memref sig .tc .vmem S512x512 .f32) (h2 : a2.IsWhole)
    (x0 : Vec F S512x5632 .bf16) (x1 : Vec F S512x5632 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3_2 x0 x1)) -∗ K ⟨⟩))
      ⊢ wp frame (wpE (defs₀ (F := F)) Variants.none c none) E (cc3__mm2_kernel i a0 h0 a1 h1 a2 h2) K := by
  simp only [cc3__mm2_kernel_eq_skeleton]; unfold cc3__mm2_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body each input's buffer at
    its block and the output's at `out3_2` of them; the invariant is the scoped rest and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Reg1.lean ====
/-
  Region 1 of @main (the two projections of a 1024-row block against two 512-row blocks of one weight array, gated:
  relu(x·w₁ᵀ)² · (x·w₃ᵀ); grid 8 × 11), at any float instance and at any contents `V` of the core's buffers when the
  region is entered: what each staging buffer holds when the body runs, what the body leaves in the output's buffer,
  the body's triple, the pipeline's proof data and its body obligation. Windows 1 and 2 read ONE array (the weight
  array, at row blocks n and n + 11), so the proof data hold it at the two halves of the full share.
-/
import proofs.«179057_j32478542693202_1_alg».proof.Proof.Gen.Kernel.Launch
import proofs.«179057_j32478542693202_1_alg».proof.Proof.Gen.Kernel.Skeleton
import proofs.«179057_j32478542693202_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 1024x2048 block as one rectangle. -/
abbrev rect1_S1024x2048 : Rect S1024x2048 := Rect.unit (s := S1024x2048) ![0, 0] S1024x2048.size inb_S1024x2048_S1024x2048_0_0
/-- The whole 512x2048 block as one rectangle. -/
abbrev rect1_S512x2048 : Rect S512x2048 := Rect.unit (s := S512x2048) ![0, 0] S512x2048.size inb_S512x2048_S512x2048_0_0
/-- The whole 1024x512 block as one rectangle. -/
abbrev rect1_S1024x512 : Rect S1024x512 := Rect.unit (s := S1024x512) ![0, 0] S1024x512.size inb_S1024x512_S1024x512_0_0

/-- What the body leaves in the output window's staging buffer: its one store, the gated product of the three input blocks. -/
def out1_3 (x0 : Vec F S1024x2048 .bf16) (x1 : Vec F S512x2048 .bf16) (x2 : Vec F S512x2048 .bf16) : Vec F S1024x512 .bf16 :=
  View.canon [⟨rect1_S1024x512, k1_pay1 (View.ld x0 rect1_S1024x2048) (View.ld x1 rect1_S512x2048) (View.ld x2 rect1_S512x2048)⟩]

/-- That store covers the buffer. -/
theorem cover1_3 (p0 : Vec F S1024x512 .bf16) (y : S1024x512.Idx) :
    ∃ pc ∈ ([⟨rect1_S1024x512, p0⟩] : List (View.Piece (Elt F) S1024x512 .bf16)), y ∈ pc.1.set :=
  View.cover_of_tiled [⟨rect1_S1024x512, p0⟩] S1024x512.size (by rfl) y

set_option maxHeartbeats 1000000 in
/-- The body on whole staging memrefs, the inputs' at contents `x…` and the output's at anything, runs to the
    continuation with the inputs' as they were and the output's at `out1_3` of them. -/
theorem sound_kernel1 (c : Dev nD) (E : Set ℕ) (i : grid1.Coords) (a0 : Memref sig .tc .vmem S1024x2048 .bf16) (h0 : a0.IsWhole) (a1 : Memref sig .tc .vmem S512x2048 .bf16) (h1 : a1.IsWhole) (a2 : Memref sig .tc .vmem S512x2048 .bf16) (h2 : a2.IsWhole) (a3 : Memref sig .tc .vmem S1024x512 .bf16) (h3 : a3.IsWhole)
    (x0 : Vec F S1024x2048 .bf16) (x1 : Vec F S512x2048 .bf16) (x2 : Vec F S512x2048 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__mm1_gate_kernel i a0 h0 a1 h1 a2 h2 a3 h3) K := by
  simp only [cc1__mm1_gate_kernel_eq_skeleton]; unfold cc1__mm1_gate_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's buffer at
    its block and the output's at `out1_3` of them; the invariant is the scoped rest and the generator register,
    untouched; nothing owed; the activation array at the full share, the weight array at its left half for window 1
    and its right half for window 2. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Shared1.lean ====
/-
  Region 1's windows 1 and 2 read ONE array (the first weight array). Here: how the core's unscoped buffers, each held
  whole at the full share, become the pipeline's windowed arrays at region entry — the shared array's full share
  split into its two halves, one per window — and how, at region exit, the windowed arrays (the inputs as entered:
  the pipeline never writes an input; the output at what the write-backs leave) make the unscoped buffers again, the
  two halves rejoined.
-/
import proofs.«179057_j32478542693202_1_alg».proof.Proof.K.Reg1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's windows: the activations, the weight array (twice), the output. -/
theorem arrImage1 : (Finset.univ.image (Pipeline.arrRef (cfgs 1).spec) : Finset (Ref sig .tc)) = [main_v3, main_v1, main_v4].toFinset := by decide

/-- Those buffers, each whole at contents `X`, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) (cfgs 1).spec c X : sProp 𝕄)
      = iprop((((c : Thread nD τ).loc main_v3) ↦{fullShare} X main_v3) ∗ (((c : Thread nD τ).loc main_v1) ↦{fullShare} X main_v1) ∗ (((c : Thread nD τ).loc main_v4) ↦{fullShare} X main_v4)) := by
  unfold Pipeline.arrBufs; exact bigSep_eq_bigSepL_of_eq [main_v3, main_v1, main_v4] arrImage1 (by decide) _

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl

/-- ENTRY. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [arrBufs1_eq]
  unfold Dat.arrays
  rw [bigSep_W1]
  rw [share1_0, share1_1, share1_2, share1_3, (arr_whole1 0).set_eq_univ, (arr_whole1 1).set_eq_univ, (arr_whole1 3).set_eq_univ]
  iintro ⟨H3, H1, H4⟩
  have hhalve : ((((c : Thread nD τ).loc main_v1) ↦{fullShare} V c main_v1) : sProp 𝕄)
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H1' := hhalve $$ H1
  icases H1' with ⟨H1l, H1r⟩
  isplitl [H3]; · iexact H3
  isplitl [H1l]; · iexact H1l
  isplitl [H1r]; · iexact H1r
  iexact H4

/-- EXIT. -/
theorem unscopedBufs_of_arrays1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N) ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  · rw [arrBufs1_eq]
    unfold Dat.arrays
    rw [bigSep_W1]
    rw [share1_0, share1_1, share1_2, share1_3, (arr_whole1 0).set_eq_univ, (arr_whole1 1).set_eq_univ, (arr_whole1 3).set_eq_univ]
    beta_reduce
    rw [hF 0, hF 1, hF 2, hF 3]
    have hjoin : iprop((((c : Thread nD τ).loc main_v1) ↦{fullShare.left} V' c main_v1) ∗ (((c : Thread nD τ).loc main_v1) ↦{fullShare.right} V' c main_v1))
        ⊢ ((((c : Thread nD τ).loc main_v1) ↦{fullShare} V' c main_v1) : sProp 𝕄) :=
      (pointsTo_share (PosShare.mem_left_op_right fullShare)).2
    iintro ⟨H3, H1l, H1r, H4⟩
    isplitl [H3]; · iexact H3
    isplitl [H1l H1r]
    · iapply hjoin
      isplitl [H1l]; · iexact H1l
      iexact H1r
    iexact H4
  · unfold Pipeline.unscopedRest
    exact bigSep_congr fun b hb => by rw [hrest b (Finset.mem_sdiff.mp hb).2]

end Cert.Kernel.Frame

end
-- ==== Proof.K.Run.lean ====
/-
  The run of @main at any float instance: the contents of the core's unscoped buffers at every boundary between
  @main's items (a fold from the launch memory: a stretch of host operations applies them; a kernel region leaves
  its input arrays as entered and its output array at what its write-backs leave), the four pipelines' proof data
  each at its region's entry contents, the six items as segments (two host stretches, four regions; region 1's two
  windows on one array hold it at the two halves of the full share), and the launch: every weakly fair execution
  terminates and ends with every unscoped buffer at the last boundary's contents. From it: the argument arrays end
  as launched (the frame), and the result buffer ends at the reshaped output array of the last region.
-/
import proofs.«179057_j32478542693202_1_alg».proof.Proof.K.Reg0
import proofs.«179057_j32478542693202_1_alg».proof.Proof.K.Reg2
import proofs.«179057_j32478542693202_1_alg».proof.Proof.K.Reg3
import proofs.«179057_j32478542693202_1_alg».proof.Proof.K.Shared1
import proofs.«179057_j32478542693202_1_alg».proof.Proof.Gen.Kernel.Regions
import Idealize.ShloMosaic.Lib.Ring

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: the output array at what the write-backs leave, every other buffer as entered (its three
    input windows sit on two arrays, which the pipeline never writes). -/
def W3 (c : Dev nD) : Valuation τ sig (Elt F) :=
  Function.update (W2 m c) (Proc.devRef .tc main_v4) ((dat1 (V2 m) c).arrAt 3 cfg1.N)
theorem W3_out (c : Dev nD) : W3 m c (Proc.devRef .tc main_v4) = (dat1 (V2 m) c).arrAt 3 cfg1.N := by
  unfold W3; exact Function.update_self _ _ _
theorem W3_of_ne (c : Dev nD) (b : Ref sig .tc) (hb : b ≠ main_v4) : W3 m c (Proc.devRef .tc b) = W2 m c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m c b
theorem hF1 (c : Dev nD) : ∀ w : Fin cfg1.W, (dat1 (V2 m) c).arrAt w cfg1.N = V3 m c (Pipeline.arrRef spec1 w)
  | ⟨0, _⟩ => (((dat1 (V2 m) c).arrAt_in 0 rfl _).trans (A_eq1 (V2 m) c 0)).trans (W3_of_ne m c main_v3 (by decide)).symm
  | ⟨1, _⟩ => (((dat1 (V2 m) c).arrAt_in 1 rfl _).trans (A_eq1 (V2 m) c 1)).trans (W3_of_ne m c main_v1 (by decide)).symm
  | ⟨2, _⟩ => (((dat1 (V2 m) c).arrAt_in 2 rfl _).trans (A_eq1 (V2 m) c 2)).trans (W3_of_ne m c main_v1 (by decide)).symm
  | ⟨3, _⟩ => (W3_out m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

/-- At region 2's exit: its arrays at what the pipeline leaves (the inputs as entered, the output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: its arrays at what the pipeline leaves (the inputs as entered, the output's write-backs
    folded), every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-- After the last host stretch: the contents at the return. -/
abbrev W6 : Dev nD → Valuation τ sig (Elt F) := fun c => StableHlo.after hostOps4 (W5 m c)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

-- a library lemma stated over `pin pcs a p` unifies with the pinned configuration only when unification may unfold plain
-- definitions in a metavariable's type
set_option backward.isDefEq.respectTransparency.types false in
/-- Region 0 over the thread state: entered from every unscoped buffer at `W1`, left at `W2`. Its arrays are split
    out of the unscoped buffers at entry and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 over the thread state: entered from every unscoped buffer at `W2`, left at `W3`. Two of its windows read
    one array: the arrays are split out of the unscoped buffers by `arrays1_of_unscopedBufs` (the shared array's full
    share halved) and put back by `unscopedBufs_of_arrays1` (the halves rejoined). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := unscopedBufs_of_arrays1 (V2 m) (V3 m) c (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 2 over the thread state: entered from every unscoped buffer at `W3`, left at `W4`. Its arrays are split
    out of the unscoped buffers at entry and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 3 over the thread state: entered from every unscoped buffer at `W4`, left at `W5`. Its arrays are split
    out of the unscoped buffers at entry and put back at the exit contents; the generator register goes into the
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .region (reg3 m),
    .host (hseg hostOps4 hostOps4_sub hostOps4_fresh (W5 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Frame

end
-- ==== Proof.K.Fold.lean ====
/-
  What the run's last boundary holds, buffer by buffer. No host operation writes an argument and no region writes one
  (a region reads an argument through an input window, which the pipeline never writes, or bypasses it), so each
  argument's buffer walks back through the fold to the launch memory: the frame. The result buffer holds the reshaped
  output array of the last region, whose inputs are the earlier regions' output arrays and the converted weights.
-/
import proofs.«179057_j32478542693202_1_alg».proof.Proof.K.Run

set_option maxRecDepth 16384

noncomputable section

namespace Cert.Kernel.Frame

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The arguments end as launched -/

theorem W6_main_arg0 (c : Dev nD) : W6 m c (Proc.devRef .tc main_arg0) = m ((c : Thread nD τ).loc main_arg0) :=
  (StableHlo.after_of_writes_sub hostOps4 _ hostOps4_writes (by decide : main_arg0 ∉ hostOps4_W)).trans <|
  (W5_of_ne m c main_arg0 (by decide)).trans <| (W4_of_ne m c main_arg0 (by decide)).trans <| (W3_of_ne m c main_arg0 (by decide)).trans <|
  (W2_of_ne m c main_arg0 (by decide)).trans <| (StableHlo.after_of_writes_sub hostOps0 _ hostOps0_writes (by decide : main_arg0 ∉ hostOps0_W)).trans rfl
theorem W6_main_arg1 (c : Dev nD) : W6 m c (Proc.devRef .tc main_arg1) = m ((c : Thread nD τ).loc main_arg1) :=
  (StableHlo.after_of_writes_sub hostOps4 _ hostOps4_writes (by decide : main_arg1 ∉ hostOps4_W)).trans <|
  (W5_of_ne m c main_arg1 (by decide)).trans <| (W4_of_ne m c main_arg1 (by decide)).trans <| (W3_of_ne m c main_arg1 (by decide)).trans <|
  (W2_of_ne m c main_arg1 (by decide)).trans <| (StableHlo.after_of_writes_sub hostOps0 _ hostOps0_writes (by decide : main_arg1 ∉ hostOps0_W)).trans rfl
theorem W6_main_arg2 (c : Dev nD) : W6 m c (Proc.devRef .tc main_arg2) = m ((c : Thread nD τ).loc main_arg2) :=
  (StableHlo.after_of_writes_sub hostOps4 _ hostOps4_writes (by decide : main_arg2 ∉ hostOps4_W)).trans <|
  (W5_of_ne m c main_arg2 (by decide)).trans <| (W4_of_ne m c main_arg2 (by decide)).trans <| (W3_of_ne m c main_arg2 (by decide)).trans <|
  (W2_of_ne m c main_arg2 (by decide)).trans <| (StableHlo.after_of_writes_sub hostOps0 _ hostOps0_writes (by decide : main_arg2 ∉ hostOps0_W)).trans rfl
/-- The weight vector is region 2's second input window: an input array ends as entered. -/
theorem W6_main_arg3 (c : Dev nD) : W6 m c (Proc.devRef .tc main_arg3) = m ((c : Thread nD τ).loc main_arg3) :=
  (StableHlo.after_of_writes_sub hostOps4 _ hostOps4_writes (by decide : main_arg3 ∉ hostOps4_W)).trans <|
  (W5_of_ne m c main_arg3 (by decide)).trans <|
  ((W4_arr m c 1).trans (((dat2 (V3 m) c).arrAt_in 1 rfl _).trans (A_eq2 (V3 m) c 1))).trans <|
  (W3_of_ne m c main_arg3 (by decide)).trans <|
  (W2_of_ne m c main_arg3 (by decide)).trans <| (StableHlo.after_of_writes_sub hostOps0 _ hostOps0_writes (by decide : main_arg3 ∉ hostOps0_W)).trans rfl

/-- THE FRAME at any float instance: @main runs to the end, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- The run with the result buffer named: it ends at the last boundary's contents of `main_v7`. -/
theorem run_result : θ_run defs (onTc (τ := τ) (main (F := F))) ⟨m, fun _ => 0, ρ⟩ (fun r => ∀ c : Dev nD,
      r.2.mem ((c.tc : Thread nD τ).loc main_v7) = W6 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-! ## The buffers the regions read, walked back through the fold -/

/-- The converted second weight array reaches region 3 as the first host stretch left it. -/
theorem V4_main_v2 (c : Dev nD) : V4 m c main_v2 = W1 m c (Proc.devRef .tc main_v2) :=
  (W4_of_ne m c main_v2 (by decide)).trans <| (W3_of_ne m c main_v2 (by decide)).trans (W2_of_ne m c main_v2 (by decide))
/-- The weight vector reaches region 2 as launched. -/
theorem V3_main_arg3 (c : Dev nD) : V3 m c main_arg3 = m ((c : Thread nD τ).loc main_arg3) :=
  (W3_of_ne m c main_arg3 (by decide)).trans <| (W2_of_ne m c main_arg3 (by decide)).trans <|
    (StableHlo.after_of_writes_sub hostOps0 _ hostOps0_writes (by decide : main_arg3 ∉ hostOps0_W)).trans rfl
/-- The converted first weight array reaches region 1 as the first host stretch left it. -/
theorem V2_main_v1 (c : Dev nD) : V2 m c main_v1 = W1 m c (Proc.devRef .tc main_v1) :=
  W2_of_ne m c main_v1 (by decide)

/-- Each region's output array is the next region's input array. -/
theorem V5_main_v6 (c : Dev nD) : W5 m c (Proc.devRef .tc main_v6) = (dat3 (V4 m) c).arrAt 2 cfg3.N := W5_arr m c 2
theorem V4_main_v5 (c : Dev nD) : V4 m c main_v5 = (dat2 (V3 m) c).arrAt 2 cfg2.N := W4_arr m c 2
theorem V3_main_v4 (c : Dev nD) : V3 m c main_v4 = (dat1 (V2 m) c).arrAt 3 cfg1.N := W3_out m c
theorem V2_main_v3 (c : Dev nD) : V2 m c main_v3 = (dat0 (V1 m) c).arrAt 1 cfg0.N := W2_arr m c 1

end Cert.Kernel.Frame

end
-- ==== Proof.KI.Reg0.lean ====
/-
  Region 0 of @main (the per-row quantisation kernel, grid of 16 row blocks), at any float instance and at
  any contents `V` of the core's buffers when the region is entered: what each staging buffer holds when
  the body runs, what the body leaves in the output's buffer (its one whole-block store, as a function of
  the input block), the body's triple, the pipeline's proof data and its body obligation.
-/
import proofs.«179057_j32478542693202_1_alg».proof.Proof.Gen.KernelIdeal.Launch
import proofs.«179057_j32478542693202_1_alg».proof.Proof.Gen.KernelIdeal.Skeleton
import proofs.«179057_j32478542693202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512×2048 block: the one rectangle the body loads and stores through. -/
abbrev r0 : Rect S512x2048 := Rect.unit (s := S512x2048) ![0, 0] S512x2048.size inb_S512x2048_S512x2048_0_0

/-- What the body leaves in the output window's staging buffer: its one store, of the quantised rows of the input block. -/
def out0_1 (x0 : Vec F S512x2048 .f32) : Vec F S512x2048 .bf16 :=
  View.canon [⟨r0, k0_pay1 (View.ld x0 r0)⟩]

/-- That store covers the buffer. -/
theorem cover0_1 (p0 : Vec F S512x2048 .bf16) (y : S512x2048.Idx) :
    ∃ pc ∈ ([⟨r0, p0⟩] : List (View.Piece (Elt F) S512x2048 .bf16)), y ∈ pc.1.set :=
  View.cover_of_tiled [⟨r0, p0⟩] S512x2048.size (by rfl) y

set_option maxHeartbeats 1000000 in
/-- The body on whole staging memrefs, the input's at contents `x0` and the output's at anything, runs to the
    continuation with the input's as it was and the output's at `out0_1 x0`. -/
theorem sound_kernel0 (c : Dev nD) (E : Set ℕ) (i : grid0.Coords) (arg1 : Memref sig .tc .vmem S512x2048 .f32) (harg1 : arg1.IsWhole) (arg2 : Memref sig .tc .vmem S512x2048 .bf16) (harg2 : arg2.IsWhole)
    (x0 : Vec F S512x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body the input's
    buffer at its block and the output's at `out0_1` of it; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg2.lean ====
/-
  Region 2 of @main (the row-wise RMS normalisation, scaling by the weight vector and per-row quantisation of a
  256-row block; grid of 32 row blocks), at any float instance and at any contents `V` of the core's buffers when the
  region is entered: what each staging buffer holds when the body runs, what the body leaves in the output's buffer,
  the body's triple, the pipeline's proof data and its body obligation.
-/
import proofs.«179057_j32478542693202_1_alg».proof.Proof.Gen.KernelIdeal.Launch
import proofs.«179057_j32478542693202_1_alg».proof.Proof.Gen.KernelIdeal.Skeleton
import proofs.«179057_j32478542693202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 256x5632 block as one rectangle. -/
abbrev rect2_S256x5632 : Rect S256x5632 := Rect.unit (s := S256x5632) ![0, 0] S256x5632.size inb_S256x5632_S256x5632_0_0
/-- The whole 5632 block as one rectangle. -/
abbrev rect2_S5632 : Rect S5632 := Rect.unit (s := S5632) ![0] S5632.size inb_S5632_S5632_0

/-- What the body leaves in the output window's staging buffer: its one store, the normalised and quantised rows. -/
def out2_2 (x0 : Vec F S256x5632 .bf16) (x1 : Vec F S5632 .f32) : Vec F S256x5632 .bf16 :=
  View.canon [⟨rect2_S256x5632, k2_pay1 (View.ld x0 rect2_S256x5632) (View.ld x1 rect2_S5632)⟩]

/-- That store covers the buffer. -/
theorem cover2_2 (p0 : Vec F S256x5632 .bf16) (y : S256x5632.Idx) :
    ∃ pc ∈ ([⟨rect2_S256x5632, p0⟩] : List (View.Piece (Elt F) S256x5632 .bf16)), y ∈ pc.1.set :=
  View.cover_of_tiled [⟨rect2_S256x5632, p0⟩] S256x5632.size (by rfl) y

set_option maxHeartbeats 1000000 in
/-- The body on whole staging memrefs, the inputs' at contents `x…` and the output's at anything, runs to the
    continuation with the inputs' as they were and the output's at `out2_2` of them. -/
theorem sound_kernel2 (c : Dev nD) (E : Set ℕ) (i : grid2.Coords) (a0 : Memref sig .tc .vmem S256x5632 .bf16) (h0 : a0.IsWhole) (a1 : Memref sig .tc .vmem S5632 .f32) (h1 : a1.IsWhole) (a2 : Memref sig .tc .vmem S256x5632 .bf16) (h2 : a2.IsWhole)
    (x0 : Vec F S256x5632 .bf16) (x1 : Vec F S5632 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2_2 x0 x1)) -∗ K ⟨⟩))
      ⊢ wp frame (wpE (defs₀ (F := F)) Variants.none c none) E (cc2__normquant_kernel i a0 h0 a1 h1 a2 h2) K := by
  simp only [cc2__normquant_kernel_eq_skeleton]; unfold cc2__normquant_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body each input's buffer at
    its block and the output's at `out2_2` of them; the invariant is the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Reg3.lean ====
/-
  Region 3 of @main (the product of a 512-row block with the transpose of a 512-row block of the second weight
  array; grid 16 × 4), at any float instance and at any contents `V` of the core's buffers when the region is entered:
  what each staging buffer holds when the body runs, what the body leaves in the output's buffer, the body's triple,
  the pipeline's proof data and its body obligation.
-/
import proofs.«179057_j32478542693202_1_alg».proof.Proof.Gen.KernelIdeal.Launch
import proofs.«179057_j32478542693202_1_alg».proof.Proof.Gen.KernelIdeal.Skeleton
import proofs.«179057_j32478542693202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 512x5632 block as one rectangle. -/
abbrev rect3_S512x5632 : Rect S512x5632 := Rect.unit (s := S512x5632) ![0, 0] S512x5632.size inb_S512x5632_S512x5632_0_0
/-- The whole 512x512 block as one rectangle. -/
abbrev rect3_S512x512 : Rect S512x512 := Rect.unit (s := S512x512) ![0, 0] S512x512.size inb_S512x512_S512x512_0_0

/-- What the body leaves in the output window's staging buffer: its one store, the matrix product of the two input blocks. -/
def out3_2 (x0 : Vec F S512x5632 .bf16) (x1 : Vec F S512x5632 .bf16) : Vec F S512x512 .f32 :=
  View.canon [⟨rect3_S512x512, k3_pay1 (View.ld x0 rect3_S512x5632) (View.ld x1 rect3_S512x5632)⟩]

/-- That store covers the buffer. -/
theorem cover3_2 (p0 : Vec F S512x512 .f32) (y : S512x512.Idx) :
    ∃ pc ∈ ([⟨rect3_S512x512, p0⟩] : List (View.Piece (Elt F) S512x512 .f32)), y ∈ pc.1.set :=
  View.cover_of_tiled [⟨rect3_S512x512, p0⟩] S512x512.size (by rfl) y

set_option maxHeartbeats 1000000 in
/-- The body on whole staging memrefs, the inputs' at contents `x…` and the output's at anything, runs to the
    continuation with the inputs' as they were and the output's at `out3_2` of them. -/
theorem sound_kernel3 (c : Dev nD) (E : Set ℕ) (i : grid3.Coords) (a0 : Memref sig .tc .vmem S512x5632 .bf16) (h0 : a0.IsWhole) (a1 : Memref sig .tc .vmem S512x5632 .bf16) (h1 : a1.IsWhole) (a2 : Memref sig .tc .vmem S512x512 .f32) (h2 : a2.IsWhole)
    (x0 : Vec F S512x5632 .bf16) (x1 : Vec F S512x5632 .bf16) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3_2 x0 x1)) -∗ K ⟨⟩))
      ⊢ wp frame (wpE (defs₀ (F := F)) Variants.none c none) E (cc3__mm2_kernel i a0 h0 a1 h1 a2 h2) K := by
  simp only [cc3__mm2_kernel_eq_skeleton]; unfold cc3__mm2_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body each input's buffer at
    its block and the output's at `out3_2` of them; the invariant is the scoped rest and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Reg1.lean ====
/-
  Region 1 of @main (the two projections of a 1024-row block against two 512-row blocks of one weight array, gated:
  relu(x·w₁ᵀ)² · (x·w₃ᵀ); grid 8 × 11), at any float instance and at any contents `V` of the core's buffers when the
  region is entered: what each staging buffer holds when the body runs, what the body leaves in the output's buffer,
  the body's triple, the pipeline's proof data and its body obligation. Windows 1 and 2 read ONE array (the weight
  array, at row blocks n and n + 11), so the proof data hold it at the two halves of the full share.
-/
import proofs.«179057_j32478542693202_1_alg».proof.Proof.Gen.KernelIdeal.Launch
import proofs.«179057_j32478542693202_1_alg».proof.Proof.Gen.KernelIdeal.Skeleton
import proofs.«179057_j32478542693202_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 1024x2048 block as one rectangle. -/
abbrev rect1_S1024x2048 : Rect S1024x2048 := Rect.unit (s := S1024x2048) ![0, 0] S1024x2048.size inb_S1024x2048_S1024x2048_0_0
/-- The whole 512x2048 block as one rectangle. -/
abbrev rect1_S512x2048 : Rect S512x2048 := Rect.unit (s := S512x2048) ![0, 0] S512x2048.size inb_S512x2048_S512x2048_0_0
/-- The whole 1024x512 block as one rectangle. -/
abbrev rect1_S1024x512 : Rect S1024x512 := Rect.unit (s := S1024x512) ![0, 0] S1024x512.size inb_S1024x512_S1024x512_0_0

/-- What the body leaves in the output window's staging buffer: its one store, the gated product of the three input blocks. -/
def out1_3 (x0 : Vec F S1024x2048 .bf16) (x1 : Vec F S512x2048 .bf16) (x2 : Vec F S512x2048 .bf16) : Vec F S1024x512 .bf16 :=
  View.canon [⟨rect1_S1024x512, k1_pay1 (View.ld x0 rect1_S1024x2048) (View.ld x1 rect1_S512x2048) (View.ld x2 rect1_S512x2048)⟩]

/-- That store covers the buffer. -/
theorem cover1_3 (p0 : Vec F S1024x512 .bf16) (y : S1024x512.Idx) :
    ∃ pc ∈ ([⟨rect1_S1024x512, p0⟩] : List (View.Piece (Elt F) S1024x512 .bf16)), y ∈ pc.1.set :=
  View.cover_of_tiled [⟨rect1_S1024x512, p0⟩] S1024x512.size (by rfl) y

set_option maxHeartbeats 1000000 in
/-- The body on whole staging memrefs, the inputs' at contents `x…` and the output's at anything, runs to the
    continuation with the inputs' as they were and the output's at `out1_3` of them. -/
theorem sound_kernel1 (c : Dev nD) (E : Set ℕ) (i : grid1.Coords) (a0 : Memref sig .tc .vmem S1024x2048 .bf16) (h0 : a0.IsWhole) (a1 : Memref sig .tc .vmem S512x2048 .bf16) (h1 : a1.IsWhole) (a2 : Memref sig .tc .vmem S512x2048 .bf16) (h2 : a2.IsWhole) (a3 : Memref sig .tc .vmem S1024x512 .bf16) (h3 : a3.IsWhole)
    (x0 : Vec F S1024x2048 .bf16) (x1 : Vec F S512x2048 .bf16) (x2 : Vec F S512x2048 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__mm1_gate_kernel i a0 h0 a1 h1 a2 h2 a3 h3) K := by
  simp only [cc1__mm1_gate_kernel_eq_skeleton]; unfold cc1__mm1_gate_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's buffer at
    its block and the output's at `out1_3` of them; the invariant is the scoped rest and the generator register,
    untouched; nothing owed; the activation array at the full share, the weight array at its left half for window 1
    and its right half for window 2. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Shared1.lean ====
/-
  Region 1's windows 1 and 2 read ONE array (the first weight array). Here: how the core's unscoped buffers, each held
  whole at the full share, become the pipeline's windowed arrays at region entry — the shared array's full share
  split into its two halves, one per window — and how, at region exit, the windowed arrays (the inputs as entered:
  the pipeline never writes an input; the output at what the write-backs leave) make the unscoped buffers again, the
  two halves rejoined.
-/
import proofs.«179057_j32478542693202_1_alg».proof.Proof.KI.Reg1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's windows: the activations, the weight array (twice), the output. -/
theorem arrImage1 : (Finset.univ.image (Pipeline.arrRef (cfgs 1).spec) : Finset (Ref sig .tc)) = [main_v3, main_v1, main_v4].toFinset := by decide

/-- Those buffers, each whole at contents `X`, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) (cfgs 1).spec c X : sProp 𝕄)
      = iprop((((c : Thread nD τ).loc main_v3) ↦{fullShare} X main_v3) ∗ (((c : Thread nD τ).loc main_v1) ↦{fullShare} X main_v1) ∗ (((c : Thread nD τ).loc main_v4) ↦{fullShare} X main_v4)) := by
  unfold Pipeline.arrBufs; exact bigSep_eq_bigSepL_of_eq [main_v3, main_v1, main_v4] arrImage1 (by decide) _

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl

/-- ENTRY. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  rw [arrBufs1_eq]
  unfold Dat.arrays
  rw [bigSep_W1]
  rw [share1_0, share1_1, share1_2, share1_3, (arr_whole1 0).set_eq_univ, (arr_whole1 1).set_eq_univ, (arr_whole1 3).set_eq_univ]
  iintro ⟨H3, H1, H4⟩
  have hhalve : ((((c : Thread nD τ).loc main_v1) ↦{fullShare} V c main_v1) : sProp 𝕄)
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H1' := hhalve $$ H1
  icases H1' with ⟨H1l, H1r⟩
  isplitl [H3]; · iexact H3
  isplitl [H1l]; · iexact H1l
  isplitl [H1r]; · iexact H1r
  iexact H4

/-- EXIT. -/
theorem unscopedBufs_of_arrays1 (V' : (c : Dev nD) → (b : Ref sig .tc) → Buf (Elt F) ((c : Thread nD τ).loc b)) (c : Dev nD)
    (hF : ∀ w, (dat1 V c).arrAt w cfg1.N = V' c (Pipeline.arrRef spec1 w))
    (hrest : ∀ b, b ∉ Finset.univ.image (Pipeline.arrRef spec1) → V' c b = V c b) :
    iprop((dat1 V c).arrays ((dat1 V c).arrAt · cfg1.N) ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  · rw [arrBufs1_eq]
    unfold Dat.arrays
    rw [bigSep_W1]
    rw [share1_0, share1_1, share1_2, share1_3, (arr_whole1 0).set_eq_univ, (arr_whole1 1).set_eq_univ, (arr_whole1 3).set_eq_univ]
    beta_reduce
    rw [hF 0, hF 1, hF 2, hF 3]
    have hjoin : iprop((((c : Thread nD τ).loc main_v1) ↦{fullShare.left} V' c main_v1) ∗ (((c : Thread nD τ).loc main_v1) ↦{fullShare.right} V' c main_v1))
        ⊢ ((((c : Thread nD τ).loc main_v1) ↦{fullShare} V' c main_v1) : sProp 𝕄) :=
      (pointsTo_share (PosShare.mem_left_op_right fullShare)).2
    iintro ⟨H3, H1l, H1r, H4⟩
    isplitl [H3]; · iexact H3
    isplitl [H1l H1r]
    · iapply hjoin
      isplitl [H1l]; · iexact H1l
      iexact H1r
    iexact H4
  · unfold Pipeline.unscopedRest
    exact bigSep_congr fun b hb => by rw [hrest b (Finset.mem_sdiff.mp hb).2]

end Cert.KernelIdeal.Frame

end
-- ==== Proof.KI.Run.lean ====
/-
  The run of @main at any float instance: the contents of the core's unscoped buffers at every boundary between
  @main's items (a fold from the launch memory: a stretch of host operations applies them; a kernel region leaves
  its input arrays as entered and its output array at what its write-backs leave), the four pipelines' proof data
  each at its region's entry contents, the six items as segments (two host stretches, four regions; region 1's two
  windows on one array hold it at the two halves of the full share), and the launch: every weakly fair execution
  terminates and ends with every unscoped buffer at the last boundary's contents. From it: the argument arrays end
  as launched (the frame), and the result buffer ends at the reshaped output array of the last region.
-/
import proofs.«179057_j32478542693202_1_alg».proof.Proof.KI.Reg0
import proofs.«179057_j32478542693202_1_alg».proof.Proof.KI.Reg2
import proofs.«179057_j32478542693202_1_alg».proof.Proof.KI.Reg3
import proofs.«179057_j32478542693202_1_alg».proof.Proof.KI.Shared1
import proofs.«179057_j32478542693202_1_alg».proof.Proof.Gen.KernelIdeal.Regions
import Idealize.ShloMosaic.Lib.Ring

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: the output array at what the write-backs leave, every other buffer as entered (its three
    input windows sit on two arrays, which the pipeline never writes). -/
def W3 (c : Dev nD) : Valuation τ sig (Elt F) :=
  Function.update (W2 m c) (Proc.devRef .tc main_v4) ((dat1 (V2 m) c).arrAt 3 cfg1.N)
theorem W3_out (c : Dev nD) : W3 m c (Proc.devRef .tc main_v4) = (dat1 (V2 m) c).arrAt 3 cfg1.N := by
  unfold W3; exact Function.update_self _ _ _
theorem W3_of_ne (c : Dev nD) (b : Ref sig .tc) (hb : b ≠ main_v4) : W3 m c (Proc.devRef .tc b) = W2 m c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m c b
theorem hF1 (c : Dev nD) : ∀ w : Fin cfg1.W, (dat1 (V2 m) c).arrAt w cfg1.N = V3 m c (Pipeline.arrRef spec1 w)
  | ⟨0, _⟩ => (((dat1 (V2 m) c).arrAt_in 0 rfl _).trans (A_eq1 (V2 m) c 0)).trans (W3_of_ne m c main_v3 (by decide)).symm
  | ⟨1, _⟩ => (((dat1 (V2 m) c).arrAt_in 1 rfl _).trans (A_eq1 (V2 m) c 1)).trans (W3_of_ne m c main_v1 (by decide)).symm
  | ⟨2, _⟩ => (((dat1 (V2 m) c).arrAt_in 2 rfl _).trans (A_eq1 (V2 m) c 2)).trans (W3_of_ne m c main_v1 (by decide)).symm
  | ⟨3, _⟩ => (W3_out m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

/-- At region 2's exit: its arrays at what the pipeline leaves (the inputs as entered, the output's write-backs
    folded), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At region 3's exit: its arrays at what the pipeline leaves (the inputs as entered, the output's write-backs
    folded), every other buffer as entered. -/
def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
/-- The same read at the TensorCore's references. -/
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

/-- After the last host stretch: the contents at the return. -/
abbrev W6 : Dev nD → Valuation τ sig (Elt F) := fun c => StableHlo.after hostOps4 (W5 m c)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

-- a library lemma stated over `pin pcs a p` unifies with the pinned configuration only when unification may unfold plain
-- definitions in a metavariable's type
set_option backward.isDefEq.respectTransparency.types false in
/-- Region 0 over the thread state: entered from every unscoped buffer at `W1`, left at `W2`. Its arrays are split
    out of the unscoped buffers at entry and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 over the thread state: entered from every unscoped buffer at `W2`, left at `W3`. Two of its windows read
    one array: the arrays are split out of the unscoped buffers by `arrays1_of_unscopedBufs` (the shared array's full
    share halved) and put back by `unscopedBufs_of_arrays1` (the halves rejoined). -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := unscopedBufs_of_arrays1 (V2 m) (V3 m) c (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 2 over the thread state: entered from every unscoped buffer at `W3`, left at `W4`. Its arrays are split
    out of the unscoped buffers at entry and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 3 over the thread state: entered from every unscoped buffer at `W4`, left at `W5`. Its arrays are split
    out of the unscoped buffers at entry and put back at the exit contents; the generator register goes into the
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .region (reg3 m),
    .host (hseg hostOps4 hostOps4_sub hostOps4_fresh (W5 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Frame

end
-- ==== Proof.KI.Fold.lean ====
/-
  What the run's last boundary holds, buffer by buffer. No host operation writes an argument and no region writes one
  (a region reads an argument through an input window, which the pipeline never writes, or bypasses it), so each
  argument's buffer walks back through the fold to the launch memory: the frame. The result buffer holds the reshaped
  output array of the last region, whose inputs are the earlier regions' output arrays and the converted weights.
-/
import proofs.«179057_j32478542693202_1_alg».proof.Proof.KI.Run

set_option maxRecDepth 16384

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## The arguments end as launched -/

theorem W6_main_arg0 (c : Dev nD) : W6 m c (Proc.devRef .tc main_arg0) = m ((c : Thread nD τ).loc main_arg0) :=
  (StableHlo.after_of_writes_sub hostOps4 _ hostOps4_writes (by decide : main_arg0 ∉ hostOps4_W)).trans <|
  (W5_of_ne m c main_arg0 (by decide)).trans <| (W4_of_ne m c main_arg0 (by decide)).trans <| (W3_of_ne m c main_arg0 (by decide)).trans <|
  (W2_of_ne m c main_arg0 (by decide)).trans <| (StableHlo.after_of_writes_sub hostOps0 _ hostOps0_writes (by decide : main_arg0 ∉ hostOps0_W)).trans rfl
theorem W6_main_arg1 (c : Dev nD) : W6 m c (Proc.devRef .tc main_arg1) = m ((c : Thread nD τ).loc main_arg1) :=
  (StableHlo.after_of_writes_sub hostOps4 _ hostOps4_writes (by decide : main_arg1 ∉ hostOps4_W)).trans <|
  (W5_of_ne m c main_arg1 (by decide)).trans <| (W4_of_ne m c main_arg1 (by decide)).trans <| (W3_of_ne m c main_arg1 (by decide)).trans <|
  (W2_of_ne m c main_arg1 (by decide)).trans <| (StableHlo.after_of_writes_sub hostOps0 _ hostOps0_writes (by decide : main_arg1 ∉ hostOps0_W)).trans rfl
theorem W6_main_arg2 (c : Dev nD) : W6 m c (Proc.devRef .tc main_arg2) = m ((c : Thread nD τ).loc main_arg2) :=
  (StableHlo.after_of_writes_sub hostOps4 _ hostOps4_writes (by decide : main_arg2 ∉ hostOps4_W)).trans <|
  (W5_of_ne m c main_arg2 (by decide)).trans <| (W4_of_ne m c main_arg2 (by decide)).trans <| (W3_of_ne m c main_arg2 (by decide)).trans <|
  (W2_of_ne m c main_arg2 (by decide)).trans <| (StableHlo.after_of_writes_sub hostOps0 _ hostOps0_writes (by decide : main_arg2 ∉ hostOps0_W)).trans rfl
/-- The weight vector is region 2's second input window: an input array ends as entered. -/
theorem W6_main_arg3 (c : Dev nD) : W6 m c (Proc.devRef .tc main_arg3) = m ((c : Thread nD τ).loc main_arg3) :=
  (StableHlo.after_of_writes_sub hostOps4 _ hostOps4_writes (by decide : main_arg3 ∉ hostOps4_W)).trans <|
  (W5_of_ne m c main_arg3 (by decide)).trans <|
  ((W4_arr m c 1).trans (((dat2 (V3 m) c).arrAt_in 1 rfl _).trans (A_eq2 (V3 m) c 1))).trans <|
  (W3_of_ne m c main_arg3 (by decide)).trans <|
  (W2_of_ne m c main_arg3 (by decide)).trans <| (StableHlo.after_of_writes_sub hostOps0 _ hostOps0_writes (by decide : main_arg3 ∉ hostOps0_W)).trans rfl

/-- THE FRAME at any float instance: @main runs to the end, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-- The run with the result buffer named: it ends at the last boundary's contents of `main_v7`. -/
theorem run_result : θ_run defs (onTc (τ := τ) (main (F := F))) ⟨m, fun _ => 0, ρ⟩ (fun r => ∀ c : Dev nD,
      r.2.mem ((c.tc : Thread nD τ).loc main_v7) = W6 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

/-! ## The buffers the regions read, walked back through the fold -/

/-- The converted second weight array reaches region 3 as the first host stretch left it. -/
theorem V4_main_v2 (c : Dev nD) : V4 m c main_v2 = W1 m c (Proc.devRef .tc main_v2) :=
  (W4_of_ne m c main_v2 (by decide)).trans <| (W3_of_ne m c main_v2 (by decide)).trans (W2_of_ne m c main_v2 (by decide))
/-- The weight vector reaches region 2 as launched. -/
theorem V3_main_arg3 (c : Dev nD) : V3 m c main_arg3 = m ((c : Thread nD τ).loc main_arg3) :=
  (W3_of_ne m c main_arg3 (by decide)).trans <| (W2_of_ne m c main_arg3 (by decide)).trans <|
    (StableHlo.after_of_writes_sub hostOps0 _ hostOps0_writes (by decide : main_arg3 ∉ hostOps0_W)).trans rfl
/-- The converted first weight array reaches region 1 as the first host stretch left it. -/
theorem V2_main_v1 (c : Dev nD) : V2 m c main_v1 = W1 m c (Proc.devRef .tc main_v1) :=
  W2_of_ne m c main_v1 (by decide)

/-- Each region's output array is the next region's input array. -/
theorem V5_main_v6 (c : Dev nD) : W5 m c (Proc.devRef .tc main_v6) = (dat3 (V4 m) c).arrAt 2 cfg3.N := W5_arr m c 2
theorem V4_main_v5 (c : Dev nD) : V4 m c main_v5 = (dat2 (V3 m) c).arrAt 2 cfg2.N := W4_arr m c 2
theorem V3_main_v4 (c : Dev nD) : V3 m c main_v4 = (dat1 (V2 m) c).arrAt 3 cfg1.N := W3_out m c
theorem V2_main_v3 (c : Dev nD) : V2 m c main_v3 = (dat0 (V1 m) c).arrAt 1 cfg0.N := W2_arr m c 1

end Cert.KernelIdeal.Frame

end
-- ==== Proof.Spec.lean ====
/-
  What the program computes, as plain functions on the extended reals, with no program in sight.

  Every row of the input (one token: 2048 numbers) goes through the same five steps, independently of the
  other rows:
    1. quantisation: with s = 127 / max(maxₖ |xₖ|, ε), the row becomes clamp(round(xₖ·s), −128, 127) / s;
    2. two projections against the two halves of the first weight array (rows j and j + 5632 of it), gated:
       relu(x·w₁ⱼ)² · (x·w₃ⱼ), for j < 5632;
    3. RMS normalisation: gⱼ · (Σ g² / 5632 + ε)^(−1/2) · nwⱼ;
    4. quantisation again (step 1 on the 5632 numbers);
    5. the projection against the second weight array: Σₕ qₕ · w2[d, h], for d < 2048.
  The constants are kept as the f32 words both programs print (the same word on both sides is never evaluated).
  `row` is the five steps on one row, `out` the whole result array; `stage0` … `stage3` are the intermediate
  arrays of a program that materialises each step as an array of 8192 rows.
-/
import Idealize.ShloMosaic.PureOps.Ideal
import Idealize.ShloMosaic.Lib.ValueIdx

noncomputable section

open scoped BigOperators

namespace Cert.Spec

open Idealize.ShloMosaic Idealize.ShloMosaic.ValueIdx

/-- −∞, the maximum's neutral element (the word 0xFF800000). -/
abbrev negInf : EReal := Ideal.ofBits .f32 0xFF800000#32
/-- ε, the f32 nearest 1e-5 (both the quantiser's floor and the normaliser's offset). -/
abbrev eps : EReal := Ideal.ofBits .f32 0x3727C5AC#32
/-- 127. -/
abbrev c127 : EReal := Ideal.ofBits .f32 0x42FE0000#32
/-- −128. -/
abbrev cm128 : EReal := Ideal.ofBits .f32 0xC3000000#32
/-- 0. -/
abbrev c0 : EReal := Ideal.ofBits .f32 0x00000000#32
/-- 5632, the length of a hidden row. -/
abbrev c5632 : EReal := Ideal.ofBits .f32 0x45B00000#32

/-- The largest absolute value of a row (−∞ for an empty one): the fold of `max` over |vₖ| = max(vₖ, −vₖ). -/
def absMax {n : ℕ} (v : Fin n → EReal) : EReal :=
  (Finset.univ : Finset (Fin n)).fold max negInf (fun k => max (v k) (-(v k)))

/-- The quantiser's scale of a row: 127 / max(absMax, ε). -/
def scale {n : ℕ} (v : Fin n → EReal) : EReal := Ideal.div c127 (max (absMax v) eps)

/-- Step 1 (and 4): a row quantised to the integers −128 … 127 at its own scale, and scaled back. -/
def quant {n : ℕ} (v : Fin n → EReal) (k : Fin n) : EReal :=
  Ideal.div (min c127 (max cm128 (Ideal.liftRound Ideal.roundHalfEven (v k * scale v)))) (scale v)

/-- Step 2: the gated pair of projections of a row against rows `j` and `j + 5632` of the first weight array. -/
def gate (a : Fin 2048 → EReal) (w : (⟨2, ![11264, 2048]⟩ : Shape).Idx → EReal) (j : Fin 5632) : EReal :=
  max (∑ k : Fin 2048, a k * w (ix2 (n0 := 11264) (n1 := 2048) ⟨j.val, by omega⟩ k)) c0
    * max (∑ k : Fin 2048, a k * w (ix2 (n0 := 11264) (n1 := 2048) ⟨j.val, by omega⟩ k)) c0
    * (∑ k : Fin 2048, a k * w (ix2 (n0 := 11264) (n1 := 2048) ⟨j.val + 5632, by omega⟩ k))

/-- Step 3: RMS normalisation of a hidden row, scaled by the weight vector. -/
def norm (g : Fin 5632 → EReal) (nw : (⟨1, ![5632]⟩ : Shape).Idx → EReal) (h : Fin 5632) : EReal :=
  g h * Ideal.rsqrt (Ideal.div (∑ h' : Fin 5632, g h' * g h') c5632 + eps) * nw (ix1 (n := 5632) h)

/-- Step 5: the projection of a hidden row against row `d` of the second weight array. -/
def proj (q : Fin 5632 → EReal) (w2 : (⟨2, ![2048, 5632]⟩ : Shape).Idx → EReal) (d : Fin 2048) : EReal :=
  ∑ h : Fin 5632, q h * w2 (ix2 (n0 := 2048) (n1 := 5632) d h)

/-- The five steps on one row. -/
def row (x : Fin 2048 → EReal) (w13 : (⟨2, ![11264, 2048]⟩ : Shape).Idx → EReal) (w2 : (⟨2, ![2048, 5632]⟩ : Shape).Idx → EReal)
    (nw : (⟨1, ![5632]⟩ : Shape).Idx → EReal) : Fin 2048 → EReal :=
  proj (quant (norm (gate (quant x) w13) nw)) w2

/-- The whole result: entry (b, s, d) is entry `d` of the five steps on row (b, s) of the input. -/
def out (x : (⟨3, ![4, 2048, 2048]⟩ : Shape).Idx → EReal) (w13 : (⟨2, ![11264, 2048]⟩ : Shape).Idx → EReal)
    (w2 : (⟨2, ![2048, 5632]⟩ : Shape).Idx → EReal) (nw : (⟨1, ![5632]⟩ : Shape).Idx → EReal) :
    (⟨3, ![4, 2048, 2048]⟩ : Shape).Idx → EReal :=
  fun j => row (fun k : Fin 2048 => x (ix3 (n0 := 4) (n1 := 2048) (n2 := 2048) (j 0) (j 1) k)) w13 w2 nw (j 2)

/-! ## The same, one array of 8192 rows per step -/

/-- Step 1 on every row of an 8192 × 2048 array. -/
def stage0 (X : (⟨2, ![8192, 2048]⟩ : Shape).Idx → EReal) : (⟨2, ![8192, 2048]⟩ : Shape).Idx → EReal :=
  fun j => quant (fun k : Fin 2048 => X (ix2 (n0 := 8192) (n1 := 2048) (j 0) k)) (j 1)

/-- Step 2 on every row. -/
def stage1 (A : (⟨2, ![8192, 2048]⟩ : Shape).Idx → EReal) (w13 : (⟨2, ![11264, 2048]⟩ : Shape).Idx → EReal) :
    (⟨2, ![8192, 5632]⟩ : Shape).Idx → EReal :=
  fun j => gate (fun k : Fin 2048 => A (ix2 (n0 := 8192) (n1 := 2048) (j 0) k)) w13 (j 1)

/-- Steps 3 and 4 on every row. -/
def stage2 (B : (⟨2, ![8192, 5632]⟩ : Shape).Idx → EReal) (nw : (⟨1, ![5632]⟩ : Shape).Idx → EReal) :
    (⟨2, ![8192, 5632]⟩ : Shape).Idx → EReal :=
  fun j => quant (norm (fun h : Fin 5632 => B (ix2 (n0 := 8192) (n1 := 5632) (j 0) h)) nw) (j 1)

/-- Step 5 on every row. -/
def stage3 (C : (⟨2, ![8192, 5632]⟩ : Shape).Idx → EReal) (w2 : (⟨2, ![2048, 5632]⟩ : Shape).Idx → EReal) :
    (⟨2, ![8192, 2048]⟩ : Shape).Idx → EReal :=
  fun j => proj (fun h : Fin 5632 => C (ix2 (n0 := 8192) (n1 := 5632) (j 0) h)) w2 (j 1)

/-- Row `r` of the steps chained array by array is the five steps on row `r`: each step reads only its own row. -/
theorem stages_row (X : (⟨2, ![8192, 2048]⟩ : Shape).Idx → EReal) (w13 : (⟨2, ![11264, 2048]⟩ : Shape).Idx → EReal)
    (w2 : (⟨2, ![2048, 5632]⟩ : Shape).Idx → EReal) (nw : (⟨1, ![5632]⟩ : Shape).Idx → EReal) (r : Fin 8192) (d : Fin 2048) :
    stage3 (stage2 (stage1 (stage0 X) w13) nw) w2 (ix2 (n0 := 8192) (n1 := 2048) r d)
      = row (fun k : Fin 2048 => X (ix2 (n0 := 8192) (n1 := 2048) r k)) w13 w2 nw d := rfl

end Cert.Spec

end
-- ==== Proof.KI.Val0.lean ====
/-
  Region 0 (the per-row quantiser) read as mathematics: the body's stored value at an index is the quantised row
  entry, each point writes back its block of the quantised array, the blocks cover the array, and so the array
  the region leaves is step 1 applied to every row of the input array.
-/
import proofs.«179057_j32478542693202_1_alg».proof.Proof.KI.Reg0
import proofs.«179057_j32478542693202_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val0

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)

/-! ## The two keepdims layout steps, read at an index -/

/-- An `[a]` vector cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along its rows to `[a, b]` reads, at `(p, q)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's stored value at an index -/

/-- The largest absolute value of row `p` of a block: the lane maximum of |x| at `p`. -/
theorem rowMax_apply (x : FVec Ideal S512x2048 .f32) (p : Fin 512) :
    multiReduction (F := Ideal) .maximumf [1] S512 (absf x) 0xFF800000#32 reduces_S512x2048_S512 (.inl rfl) rfl (ix1 p)
      = Cert.Spec.absMax (fun k : Fin 2048 => x (ix2 p k)) := by
  refine (Ideal.multiReduction_maximumf_single (absf x) 0xFF800000#32 reduces_S512x2048_S512 (.inl rfl) rfl (ix1 p)).trans ?_
  have hl : ∀ k : Fin 2048, reduces_S512x2048_S512.lift (ix1 p) k = ix2 p k := fun k => Shape.idx_ext₂ rfl rfl
  unfold Cert.Spec.absMax
  show (Finset.univ : Finset (Fin 2048)).fold max (Ideal.ofBits .f32 0xFF800000#32) (fun k : Fin 2048 => absf x (reduces_S512x2048_S512.lift (ix1 p) k)) = _
  simp only [hl]
  rfl

theorem roundeven_apply {s : Shape} {φ : FTy} (a : FVec Ideal s φ) (i : s.Idx) :
    roundeven a i = Ideal.liftRound Ideal.roundHalfEven (a i) := rfl

/-- The column of scales of a block: 127 over the larger of the row's largest absolute value and ε. -/
def scaleCol (x : FVec Ideal S512x2048 .f32) : FVec Ideal S512x1 .f32 :=
  divf (broadcast S512x1 (Scalar.ofBits (F := Ideal) .f32 0x42FE0000#32))
    (maximumf (shapeCast S512x1 (multiReduction (F := Ideal) .maximumf [1] S512 (absf x) 0xFF800000#32 reduces_S512x2048_S512 (.inl rfl) rfl) shapeCasts_S512_S512x1)
      (broadcast S512x1 (Scalar.ofBits (F := Ideal) .f32 0x3727C5AC#32)))

theorem scaleCol_apply (x : FVec Ideal S512x2048 .f32) (p : Fin 512) (u : Fin 1) :
    scaleCol x (ix2 p u) = Cert.Spec.scale (fun k : Fin 2048 => x (ix2 p k)) := by
  unfold scaleCol Cert.Spec.scale
  rw [divf_apply, maximumf_apply, shapeCast_a_a1_apply, rowMax_apply]
  rfl

/-- The quantised block in terms of the column of scales. -/
def quantBlk (x : FVec Ideal S512x2048 .f32) : FVec Ideal S512x2048 .bf16 :=
  truncf .bf16 (divf (minimumf (broadcast S512x2048 (Scalar.ofBits (F := Ideal) .f32 0x42FE0000#32))
      (maximumf (broadcast S512x2048 (Scalar.ofBits (F := Ideal) .f32 0xC3000000#32))
        (roundeven (mulf x (broadcastTo S512x2048 (scaleCol x) broadcasts_S512x1_S512x2048)))))
    (broadcastTo S512x2048 (scaleCol x) broadcasts_S512x1_S512x2048)) bitsLt_bf16_f32

theorem quantBlk_apply (x : FVec Ideal S512x2048 .f32) (p : Fin 512) (q : Fin 2048) :
    quantBlk x (ix2 p q) = Cert.Spec.quant (fun k : Fin 2048 => x (ix2 p k)) q := by
  unfold quantBlk Cert.Spec.quant
  rw [truncf_apply, divf_apply, minimumf_apply, maximumf_apply, roundeven_apply, mulf_apply, broadcastTo_a1_ab_apply, scaleCol_apply]
  rfl

/-- The body's stored value is the quantised block of the loaded block. -/
theorem pay_eq (x : Vec Ideal S512x2048 .f32) :
    k0_pay1 (F := Ideal) x = quantBlk (shapeCast S512x2048 x shapeCasts_S512x2048_S512x2048) := rfl

/-- The body's stored value at `(p, q)` is entry `q` of row `p` of the loaded block, quantised at the row's own scale. -/
theorem pay_apply (x : Vec Ideal S512x2048 .f32) (p : Fin 512) (q : Fin 2048) :
    k0_pay1 (F := Ideal) x (ix2 p q) = Cert.Spec.quant (fun k : Fin 2048 => x (ix2 p k)) q := by
  rw [pay_eq, shapeCast_self]
  exact quantBlk_apply x p q

/-! ## From the blocks to the array -/

theorem hz : (![0, 0] : Fin 2 → Nat) = fun _ => 0 := funext fun a => by fin_cases a <;> rfl

/-- The printed index maps over the grid: both windows sit at row block `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- What point `t` writes back is block `t` of the array of quantised rows of the input array as the region finds it:
    the rows of the loaded block are rows `512 t + p` of the array, whole. -/
theorem flushed_eq (c : Dev nD) (t : Fin cfg0.N) :
    (dat0 (F := Ideal) V c).flushed 1 t = ((cfg0.win 1).blk t).view.read (Elt Ideal) (Cert.Spec.stage0 (V c main_v0)) := by
  show (cfg0.win 1).cut (grid0.coords t) ((dat0 (F := Ideal) V c).after 1 t) = _
  rw [after0_1]
  unfold out0_1
  rw [View.canon_unit_zero hz]
  simp only [View.ld_unit_zero (S := S512x2048) hz]
  funext j
  obtain ⟨e0, e1, e2, e3⟩ := idx_facts t
  have hj0 : (j 0).val < 512 := (j 0).isLt
  have hj1 : (j 1).val < 2048 := (j 1).isLt
  have hL : (cfg0.win 1).cut (grid0.coords t) (k0_pay1 (F := Ideal) (iblk0 V c 0 t)) j
      = k0_pay1 (F := Ideal) (iblk0 V c 0 t) (ix2 (⟨(j 0).val, hj0⟩ : Fin 512) (⟨(j 1).val, hj1⟩ : Fin 2048)) :=
    congrArg (k0_pay1 (F := Ideal) (iblk0 V c 0 t)) (funext fun a => by match a with | ⟨0, _⟩ => rfl | ⟨1, _⟩ => rfl)
  refine hL.trans ((pay_apply (iblk0 V c 0 t) _ _).trans ?_)
  show _ = Cert.Spec.stage0 (V c main_v0) (((cfg0.win 1).blk t).view.emb j)
  unfold Cert.Spec.stage0
  refine congr (congrArg Cert.Spec.quant (funext fun k => ?_)) ?_
  · show V c main_v0 (((cfg0.win 0).blk t).view.emb (ix2 (⟨(j 0).val, hj0⟩ : Fin 512) k)) = V c main_v0 (ix2 _ k)
    refine congrArg (V c main_v0) (funext fun a => Fin.ext ?_)
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * k.val = k.val; omega
  · apply Fin.ext
    show (j 1).val = win0_1.index t (1 : Fin 2) * 2048 + 1 * (j 1).val
    omega

/-- An index of the array is in point `t`'s block iff each coordinate is in the block's range on its axis. -/
theorem mem_blk (t : Fin cfg0.N) (i : S8192x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v3).slice (win0_1.rect t)).set ↔ _
  rw [View.set_slice_whole, Rect.mem_set_unit]
  exact Iff.rfl

/-- Row `r` of the array lies in the block of point `r / 512`, whatever the column: the sixteen blocks cover the array. -/
theorem cover (i : S8192x2048.Idx) : ∃ t : Fin cfg0.N, (cfg0.win 1).flush t = true ∧ i ∈ ((cfg0.win 1).blk t).view.set := by
  have hi0 : (i 0).val < 8192 := (i 0).isLt
  have hi1 : (i 1).val < 2048 := (i 1).isLt
  have hN : cfg0.N = 16 := N_0
  have hlt : (i 0).val / 512 < cfg0.N := by rw [hN]; omega
  refine ⟨⟨(i 0).val / 512, hlt⟩, flush0_1 _, ?_⟩
  rw [mem_blk]
  obtain ⟨e0, e1, e2, e3⟩ := idx_facts ⟨(i 0).val / 512, hlt⟩
  have ht : (⟨(i 0).val / 512, hlt⟩ : Fin cfg0.N).val = (i 0).val / 512 := rfl
  intro a
  match a with
  | ⟨0, _⟩ =>
    show win0_1.index ⟨(i 0).val / 512, hlt⟩ (0 : Fin 2) * 512 ≤ (i 0).val ∧ (i 0).val < win0_1.index ⟨(i 0).val / 512, hlt⟩ (0 : Fin 2) * 512 + 512
    omega
  | ⟨1, _⟩ =>
    show win0_1.index ⟨(i 0).val / 512, hlt⟩ (1 : Fin 2) * 2048 ≤ (i 1).val ∧ (i 1).val < win0_1.index ⟨(i 0).val / 512, hlt⟩ (1 : Fin 2) * 2048 + 2048
    omega

/-- The array region 0 leaves: step 1 on every row of the input array as the region finds it. -/
theorem arr0 (c : Dev nD) : (dat0 (F := Ideal) V c).arrAt 1 cfg0.N = Cert.Spec.stage0 (V c main_v0) :=
  (dat0 (F := Ideal) V c).arrAt_eq_of_cover 1 (Cert.Spec.stage0 (V c main_v0)) (fun t _ => flushed_eq V c t) cover

end Cert.KernelIdeal.Val0

end
-- ==== Proof.KI.Val1.lean ====
/-
  Region 1's value: the array the gated pair of projections leaves, as the specification's step 2 of the region's two
  input arrays. First the body's stored value at one index (two contractions over the second axes, the first clamped at
  zero and squared, times the second), then what each grid point writes back as a block of the specification's array,
  then the blocks tile the array.
-/
import proofs.«179057_j32478542693202_1_alg».proof.Proof.KI.Reg1
import proofs.«179057_j32478542693202_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val1

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)

/-! ## The contraction at an index -/

/-- The left operand's row coordinate is the result's row. -/
theorem lhs_gate_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
/-- The left operand's column coordinate is the contraction's. -/
theorem lhs_gate_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
/-- The right operand's row coordinate is the result's column. -/
theorem rhs_gate_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
/-- The right operand's column coordinate is the contraction's. -/
theorem rhs_gate_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- A 1024 × 2048 block against a 512 × 2048 block, contracted over their second axes into a zero accumulator: entry
    (p, q) is Σₖ a[p, k] · w[q, k]. -/
theorem contract_apply (a : FVec Ideal S1024x2048 .bf16) (w : FVec Ideal S512x2048 .bf16) (p : Fin 1024) (q : Fin 512) :
    matmul dot_S1024x2048_S512x2048_S1024x512_1_1_0_0_n_n none a w (constant (F := Ideal) S1024x512 .f32 0x00000000#32) (ix2 p q)
      = ∑ k : Fin 2048, a (ix2 p k) * w (ix2 q k) := by
  refine (Ideal.matmul_constant_zero_apply dot_S1024x2048_S512x2048_S1024x512_1_1_0_0_n_n none a w (ix2 p q)).trans ?_
  rw [← Equiv.sum_comp (ValueIdx.contrEquiv1 dot_S1024x2048_S512x2048_S1024x512_1_1_0_0_n_n 2048 rfl rfl).symm]
  refine Finset.sum_congr rfl fun k _ => ?_
  have hk := ValueIdx.contrEquiv1_symm_val dot_S1024x2048_S512x2048_S1024x512_1_1_0_0_n_n 2048 rfl rfl k
  have el : dot_S1024x2048_S512x2048_S1024x512_1_1_0_0_n_n.lhsIdx (ix2 p q) ((ValueIdx.contrEquiv1 dot_S1024x2048_S512x2048_S1024x512_1_1_0_0_n_n 2048 rfl rfl).symm k) = ix2 p k := funext fun a => Fin.ext (by
    match a with
    | ⟨0, _⟩ => exact lhs_gate_0 _ _
    | ⟨1, _⟩ => exact (lhs_gate_1 _ _).trans hk)
  have er : dot_S1024x2048_S512x2048_S1024x512_1_1_0_0_n_n.rhsIdx (ix2 p q) ((ValueIdx.contrEquiv1 dot_S1024x2048_S512x2048_S1024x512_1_1_0_0_n_n 2048 rfl rfl).symm k) = ix2 q k := funext fun a => Fin.ext (by
    match a with
    | ⟨0, _⟩ => exact rhs_gate_0 _ _
    | ⟨1, _⟩ => exact (rhs_gate_1 _ _).trans hk)
  rw [el, er]

/-! ## The body's stored value at an index -/

/-- Entry (p, q) of the body's stored value: with x₁ = Σₖ a[p, k] · w₁[q, k] and x₃ = Σₖ a[p, k] · w₃[q, k], it is
    max(x₁, 0) · max(x₁, 0) · x₃ (the narrowing to bf16 is the identity on the extended reals). -/
theorem stored_apply (a : Vec Ideal S1024x2048 .bf16) (w1 : Vec Ideal S512x2048 .bf16) (w3 : Vec Ideal S512x2048 .bf16)
    (p : Fin 1024) (q : Fin 512) :
    k1_pay1 (F := Ideal) a w1 w3 (ix2 p q)
      = max (∑ k : Fin 2048, a (ix2 p k) * w1 (ix2 q k)) Cert.Spec.c0
        * max (∑ k : Fin 2048, a (ix2 p k) * w1 (ix2 q k)) Cert.Spec.c0
        * (∑ k : Fin 2048, a (ix2 p k) * w3 (ix2 q k)) := by
  unfold k1_pay1
  simp only [shapeCast_self]
  rw [truncf_apply, mulf_apply, mulf_apply, maximumf_apply, broadcast_apply, contract_apply, contract_apply]
  rfl

/-! ## What a grid point writes back -/

theorem zero_off : (![0, 0] : Fin 2 → Nat) = fun _ => 0 := funext fun a => by fin_cases a <;> rfl

/-- The printed index maps over the 8 × 11 grid: the activation block moves with the output's row block, the two weight
    blocks with the output's column block (the second eleven blocks further down), all at column block 0. -/
theorem block_indices : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = win1_3.index t (1 : Fin 2) + 11
    ∧ win1_2.index t (1 : Fin 2) = 0
    ∧ win1_3.index t (0 : Fin 2) ≤ 7 ∧ win1_3.index t (1 : Fin 2) ≤ 10 :=
  (by decide +kernel : ∀ t : Fin grid1.N, _)

/-- Every (row block, column block) pair is some grid point's output block. -/
theorem block_onto : ∀ (q0 : Fin 8) (q1 : Fin 11), ∃ t : Fin cfg1.N, win1_3.index t = ![q0.val, q1.val] :=
  (by decide +kernel : ∀ (q0 : Fin 8) (q1 : Fin 11), ∃ t : Fin grid1.N, win1_3.index t = ![q0.val, q1.val])

/-- Point `t` writes back block `t` of the specification's step 2 of the two input arrays: entry (p, q) of the block
    is entry (1024·i + p, 512·n + q) of the array, the activation block holds rows 1024·i + p, the two weight blocks rows
    512·n + q and 5632 + 512·n + q. -/
theorem written_back (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.stage1 (V c main_v3) (V c main_v1)) := by
  show (cfg1.win 3).cut (grid1.coords t) ((dat1 V c).after 3 t) = _
  rw [after1_3]
  unfold out1_3
  rw [View.canon_unit_zero zero_off]
  simp only [View.ld_unit_zero (S := S1024x2048) zero_off, View.ld_unit_zero (S := S512x2048) zero_off]
  obtain ⟨e0, e1, e2, e3, e4, e5, e6, e7⟩ := block_indices t
  funext j
  obtain ⟨p, q, rfl⟩ : ∃ (p : Fin 1024) (q : Fin 512), j = ix2 p q := ⟨j 0, j 1, eq_ix2 j⟩
  refine (stored_apply _ _ _ p q).trans ?_
  have hp : p.val < 1024 := p.isLt
  have hq : q.val < 512 := q.isLt
  have h0 : ∀ k : Fin 2048, iblk1 V c 0 t (ix2 (n0 := 1024) (n1 := 2048) p k)
      = V c main_v3 (ix2 (n0 := 8192) (n1 := 2048) ⟨win1_3.index t (0 : Fin 2) * 1024 + p.val, by omega⟩ k) := fun k => by
    show V c main_v3 (((cfg1.win 0).blk t).view.emb (ix2 p k)) = V c main_v3 _
    refine congrArg (V c main_v3) (funext fun a => Fin.ext ?_)
    have hk : k.val < 2048 := k.isLt
    match a with
    | ⟨0, _⟩ => show win1_0.index t (0 : Fin 2) * 1024 + 1 * p.val = win1_3.index t (0 : Fin 2) * 1024 + p.val; omega
    | ⟨1, _⟩ => show win1_0.index t (1 : Fin 2) * 2048 + 1 * k.val = k.val; omega
  have h1 : ∀ k : Fin 2048, iblk1 V c 1 t (ix2 (n0 := 512) (n1 := 2048) q k)
      = V c main_v1 (ix2 (n0 := 11264) (n1 := 2048) ⟨win1_3.index t (1 : Fin 2) * 512 + q.val, by omega⟩ k) := fun k => by
    show V c main_v1 (((cfg1.win 1).blk t).view.emb (ix2 q k)) = V c main_v1 _
    refine congrArg (V c main_v1) (funext fun a => Fin.ext ?_)
    have hk : k.val < 2048 := k.isLt
    match a with
    | ⟨0, _⟩ => show win1_1.index t (0 : Fin 2) * 512 + 1 * q.val = win1_3.index t (1 : Fin 2) * 512 + q.val; omega
    | ⟨1, _⟩ => show win1_1.index t (1 : Fin 2) * 2048 + 1 * k.val = k.val; omega
  have h2 : ∀ k : Fin 2048, iblk1 V c 2 t (ix2 (n0 := 512) (n1 := 2048) q k)
      = V c main_v1 (ix2 (n0 := 11264) (n1 := 2048) ⟨win1_3.index t (1 : Fin 2) * 512 + q.val + 5632, by omega⟩ k) := fun k => by
    show V c main_v1 (((cfg1.win 2).blk t).view.emb (ix2 q k)) = V c main_v1 _
    refine congrArg (V c main_v1) (funext fun a => Fin.ext ?_)
    have hk : k.val < 2048 := k.isLt
    match a with
    | ⟨0, _⟩ => show win1_2.index t (0 : Fin 2) * 512 + 1 * q.val = win1_3.index t (1 : Fin 2) * 512 + q.val + 5632; omega
    | ⟨1, _⟩ => show win1_2.index t (1 : Fin 2) * 2048 + 1 * k.val = k.val; omega
  have hr : View.read (Elt Ideal) ((View.whole main_v4).slice ((win1 3).rect t)) (Cert.Spec.stage1 (V c main_v3) (V c main_v1)) (ix2 p q)
      = Cert.Spec.stage1 (V c main_v3) (V c main_v1)
          (ix2 (n0 := 8192) (n1 := 5632) ⟨win1_3.index t (0 : Fin 2) * 1024 + p.val, by omega⟩ ⟨win1_3.index t (1 : Fin 2) * 512 + q.val, by omega⟩) := by
    show Cert.Spec.stage1 (V c main_v3) (V c main_v1) (((cfg1.win 3).blk t).view.emb (ix2 p q)) = _
    refine congrArg (Cert.Spec.stage1 (V c main_v3) (V c main_v1)) (funext fun a => Fin.ext ?_)
    match a with
    | ⟨0, _⟩ => show win1_3.index t (0 : Fin 2) * 1024 + 1 * p.val = win1_3.index t (0 : Fin 2) * 1024 + p.val; omega
    | ⟨1, _⟩ => show win1_3.index t (1 : Fin 2) * 512 + 1 * q.val = win1_3.index t (1 : Fin 2) * 512 + q.val; omega
  refine Eq.trans ?_ hr.symm
  simp only [h0, h1, h2]
  rfl

/-! ## The blocks tile the array -/

/-- An index of the array is in point `t`'s block iff each coordinate is in the block's range on its axis. -/
theorem mem_block (t : Fin cfg1.N) (i : S8192x5632.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v4).slice (win1_3.rect t)).set ↔ _
  rw [View.set_slice_whole, Rect.mem_set_unit]
  exact Iff.rfl

/-- Entry (r, j) of the array is in the block of the point with row block r / 1024 and column block j / 512. -/
theorem covered (i : S8192x5632.Idx) : ∃ t : Fin cfg1.N, (cfg1.win 3).flush t = true ∧ i ∈ ((cfg1.win 3).blk t).view.set := by
  have hi0 : (i 0).val < 8192 := (i 0).isLt
  have hi1 : (i 1).val < 5632 := (i 1).isLt
  obtain ⟨t, ht⟩ := block_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_block]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The array region 1 leaves is the specification's step 2 of the activation array and the weight array. -/
theorem arr1 (V : (c : Dev nD) → (b : Ref sig .tc) → Buf (Elt Ideal) ((c : Thread nD τ).loc b)) (c : Dev nD) :
    (dat1 (F := Ideal) V c).arrAt 3 cfg1.N = Cert.Spec.stage1 (V c main_v3) (V c main_v1) :=
  (dat1 (F := Ideal) V c).arrAt_eq_of_cover 3 (Cert.Spec.stage1 (V c main_v3) (V c main_v1)) (fun t _ => written_back V c t) covered

end Cert.KernelIdeal.Val1

end
-- ==== Proof.KI.Val2.lean ====
/-
  Region 2's value: the output block of the row-wise RMS normalisation and quantisation, read index by index as the
  specification's row functions of the loaded block's rows, and from the blocks to the whole array.
-/
import proofs.«179057_j32478542693202_1_alg».proof.Proof.KI.Reg2
import proofs.«179057_j32478542693202_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val2

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)

/-! ## Layout operations at an index -/

/-- A length-`a` vector cast to a column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along rows to `[a, b]` reads, at `(p, q)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two lane reductions of a 256 × 5632 block, row by row -/

/-- The sum over a row. -/
theorem rowSum (src : FVec Ideal S256x5632 .f32) (h : S256x5632.Reduces [1] S256) (hφ : FKind.Formats .f32)
    (hacc : (0x00000000#32 : BitVec 32) = FKind.add.neutral .f32 hφ) (p : Fin 256) :
    multiReduction (F := Ideal) .add [1] S256 src 0x00000000#32 h hφ hacc (ix1 p) = ∑ k : Fin 5632, src (ix2 p k) := by
  refine (Ideal.multiReduction_add_single src _ h hφ hacc (ix1 p)).trans ?_
  refine Finset.sum_congr rfl fun k _ => congrArg src ?_
  funext a
  match a with
  | ⟨0, _⟩ => rfl
  | ⟨1, _⟩ => rfl

/-- The maximum over a row, folded from −∞. -/
theorem rowMax (src : FVec Ideal S256x5632 .f32) (h : S256x5632.Reduces [1] S256) (hφ : FKind.Formats .f32)
    (hacc : (0xFF800000#32 : BitVec 32) = FKind.maximumf.neutral .f32 hφ) (p : Fin 256) :
    multiReduction (F := Ideal) .maximumf [1] S256 src 0xFF800000#32 h hφ hacc (ix1 p)
      = (Finset.univ : Finset (Fin 5632)).fold max Cert.Spec.negInf (fun k => src (ix2 p k)) := by
  refine (Ideal.multiReduction_maximumf_single src _ h hφ hacc (ix1 p)).trans ?_
  refine congrArg (fun f => (Finset.univ : Finset (Fin 5632)).fold max Cert.Spec.negInf f) ?_
  funext k
  refine congrArg src ?_
  funext a
  match a with
  | ⟨0, _⟩ => rfl
  | ⟨1, _⟩ => rfl

/-! ## The body's stored value, in named pieces -/

/-- The loaded block widened to f32 (the identity on the extended reals). -/
def gB (x0 : Vec Ideal S256x5632 .bf16) : FVec Ideal S256x5632 .f32 :=
  extf .f32 (shapeCast S256x5632 x0 shapeCasts_S256x5632_S256x5632) bitsLt_bf16_f32

/-- The column of reciprocal root mean squares, one per row. -/
def rinvB (x0 : Vec Ideal S256x5632 .bf16) : FVec Ideal S256x1 .f32 :=
  rsqrt (addf (divf (shapeCast S256x1 (multiReduction .add [1] S256 (mulf (gB x0) (gB x0)) 0x00000000#32 reduces_S256x5632_S256 (.inl rfl) rfl) shapeCasts_S256_S256x1)
    (broadcast S256x1 (Scalar.ofBits .f32 0x45B00000#32))) (broadcast S256x1 (Scalar.ofBits .f32 0x3727C5AC#32)))

/-- The normalised block, scaled by the weight vector. -/
def innerB (x0 : Vec Ideal S256x5632 .bf16) (x1 : Vec Ideal S5632 .f32) : FVec Ideal S256x5632 .f32 :=
  mulf (mulf (gB x0) (broadcastTo S256x5632 (rinvB x0) broadcasts_S256x1_S256x5632))
    (broadcastTo S256x5632 (shapeCast S1x5632 x1 shapeCasts_S5632_S1x5632) broadcasts_S1x5632_S256x5632)

/-- The column of quantisation scales, one per row. -/
def scaleB (x0 : Vec Ideal S256x5632 .bf16) (x1 : Vec Ideal S5632 .f32) : FVec Ideal S256x1 .f32 :=
  divf (broadcast S256x1 (Scalar.ofBits .f32 0x42FE0000#32))
    (maximumf (shapeCast S256x1 (multiReduction .maximumf [1] S256 (absf (innerB x0 x1)) 0xFF800000#32 reduces_S256x5632_S256 (.inl rfl) rfl) shapeCasts_S256_S256x1)
      (broadcast S256x1 (Scalar.ofBits .f32 0x3727C5AC#32)))

/-- The stored value is the clamp of the rounded scaled block, scaled back. -/
theorem pay2_eq (x0 : Vec Ideal S256x5632 .bf16) (x1 : Vec Ideal S5632 .f32) :
    k2_pay1 (F := Ideal) x0 x1
      = truncf .bf16 (divf (minimumf (broadcast S256x5632 (Scalar.ofBits .f32 0x42FE0000#32))
          (maximumf (broadcast S256x5632 (Scalar.ofBits .f32 0xC3000000#32))
            (roundeven (mulf (innerB x0 x1) (broadcastTo S256x5632 (scaleB x0 x1) broadcasts_S256x1_S256x5632)))))
          (broadcastTo S256x5632 (scaleB x0 x1) broadcasts_S256x1_S256x5632)) bitsLt_bf16_f32 := rfl

theorem absf_apply {s : Shape} (a : FVec Ideal s .f32) (i : s.Idx) : absf a i = max (a i) (-(a i)) := rfl
theorem rsqrt_apply {s : Shape} (a : FVec Ideal s .f32) (i : s.Idx) : rsqrt a i = Ideal.rsqrt (a i) := rfl
theorem roundeven_apply {s : Shape} (a : FVec Ideal s .f32) (i : s.Idx) :
    roundeven a i = Ideal.liftRound Ideal.roundHalfEven (a i) := rfl
theorem scalar_ofBits (w : BitVec 32) : (Scalar.ofBits (F := Ideal) .f32 w) = Ideal.ofBits .f32 w := rfl

theorem gB_apply (x0 : Vec Ideal S256x5632 .bf16) (i : S256x5632.Idx) : gB x0 i = x0 i := by
  unfold gB
  rw [shapeCast_self]
  rfl

/-- Entry `p` of the column of reciprocal root mean squares. -/
theorem rinvB_apply (x0 : Vec Ideal S256x5632 .bf16) (p : Fin 256) (u : Fin 1) :
    rinvB x0 (ix2 p u) = Ideal.rsqrt (Ideal.div (∑ h : Fin 5632, x0 (ix2 p h) * x0 (ix2 p h)) Cert.Spec.c5632 + Cert.Spec.eps) := by
  have e1 : shapeCast S256x1 (multiReduction (F := Ideal) .add [1] S256 (mulf (gB x0) (gB x0)) 0x00000000#32 reduces_S256x5632_S256 (.inl rfl) rfl) shapeCasts_S256_S256x1 (ix2 p u)
      = ∑ h : Fin 5632, x0 (ix2 p h) * x0 (ix2 p h) :=
    (shapeCast_a_a1_apply _ shapeCasts_S256_S256x1 p u).trans
      ((rowSum (mulf (gB x0) (gB x0)) reduces_S256x5632_S256 (.inl rfl) rfl p).trans (by simp only [mulf_apply, gB_apply]))
  unfold rinvB
  rw [rsqrt_apply, addf_apply, divf_apply, e1]
  rfl

/-- The normalised block at an index is the specification's `norm` of the block's row. -/
theorem innerB_apply (x0 : Vec Ideal S256x5632 .bf16) (x1 : Vec Ideal S5632 .f32) (p : Fin 256) (q : Fin 5632) :
    innerB x0 x1 (ix2 p q) = Cert.Spec.norm (fun h : Fin 5632 => x0 (ix2 p h)) x1 q := by
  have e1 : broadcastTo S256x5632 (rinvB x0) broadcasts_S256x1_S256x5632 (ix2 p q)
      = Ideal.rsqrt (Ideal.div (∑ h : Fin 5632, x0 (ix2 p h) * x0 (ix2 p h)) Cert.Spec.c5632 + Cert.Spec.eps) :=
    (broadcastTo_a1_ab_apply _ broadcasts_S256x1_S256x5632 p q).trans (rinvB_apply x0 p 0)
  have e2 : broadcastTo S256x5632 (shapeCast S1x5632 x1 shapeCasts_S5632_S1x5632) broadcasts_S1x5632_S256x5632 (ix2 p q) = x1 (ix1 q) :=
    (broadcastTo_1b_ab_apply _ broadcasts_S1x5632_S256x5632 p q).trans (shapeCast_a_1a_apply x1 shapeCasts_S5632_S1x5632 0 q)
  unfold innerB Cert.Spec.norm
  rw [mulf_apply, mulf_apply, e1, e2, gB_apply]

/-- Entry `p` of the column of scales is the specification's `scale` of the normalised row. -/
theorem scaleB_apply (x0 : Vec Ideal S256x5632 .bf16) (x1 : Vec Ideal S5632 .f32) (p : Fin 256) (u : Fin 1) :
    scaleB x0 x1 (ix2 p u) = Cert.Spec.scale (Cert.Spec.norm (fun h : Fin 5632 => x0 (ix2 p h)) x1) := by
  have e1 : shapeCast S256x1 (multiReduction (F := Ideal) .maximumf [1] S256 (absf (innerB x0 x1)) 0xFF800000#32 reduces_S256x5632_S256 (.inl rfl) rfl) shapeCasts_S256_S256x1 (ix2 p u)
      = Cert.Spec.absMax (Cert.Spec.norm (fun h : Fin 5632 => x0 (ix2 p h)) x1) :=
    (shapeCast_a_a1_apply _ shapeCasts_S256_S256x1 p u).trans
      ((rowMax (absf (innerB x0 x1)) reduces_S256x5632_S256 (.inl rfl) rfl p).trans (by
        unfold Cert.Spec.absMax
        refine congrArg (fun f => (Finset.univ : Finset (Fin 5632)).fold max Cert.Spec.negInf f) ?_
        funext k
        rw [absf_apply, innerB_apply]))
  unfold scaleB Cert.Spec.scale
  rw [divf_apply, maximumf_apply, e1]
  rfl

/-- THE STORED VALUE AT AN INDEX: the specification's quantised normalised row. -/
theorem pay2_apply (x0 : Vec Ideal S256x5632 .bf16) (x1 : Vec Ideal S5632 .f32) (p : Fin 256) (q : Fin 5632) :
    k2_pay1 (F := Ideal) x0 x1 (ix2 p q) = Cert.Spec.quant (Cert.Spec.norm (fun h : Fin 5632 => x0 (ix2 p h)) x1) q := by
  have e1 : broadcastTo S256x5632 (scaleB x0 x1) broadcasts_S256x1_S256x5632 (ix2 p q)
      = Cert.Spec.scale (Cert.Spec.norm (fun h : Fin 5632 => x0 (ix2 p h)) x1) :=
    (broadcastTo_a1_ab_apply _ broadcasts_S256x1_S256x5632 p q).trans (scaleB_apply x0 x1 p 0)
  rw [pay2_eq]
  unfold Cert.Spec.quant
  rw [truncf_apply, divf_apply, minimumf_apply, maximumf_apply, roundeven_apply, mulf_apply, e1, innerB_apply]
  rfl

/-! ## From the blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row blocks of input and output move with the point, the column block and
    the weight vector's block stay at zero. -/
theorem idx_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- WHAT POINT `t` WRITES BACK is block `t` of the specification's array of the arrays the region finds. -/
theorem flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.stage2 (V c main_v4) (V c main_arg3)) := by
  show (cfg2.win 2).cut (grid2.coords t) ((dat2 (F := Ideal) V c).after 2 t) = _
  rw [after2_2]
  unfold out2_2
  rw [View.canon_unit_zero hz2]
  simp only [View.ld_unit_zero (S := S256x5632) hz2, View.ld_unit_zero (S := S5632) hz1]
  obtain ⟨e00, e01, e10, e20, e21⟩ := idx_facts t
  funext j
  have hj0 : (j 0).val < 256 := (j 0).isLt
  have hj1 : (j 1).val < 5632 := (j 1).isLt
  have hj : (cfg2.win 2).xinj (grid2.coords t) j = ix2 (⟨(j 0).val, hj0⟩ : Fin 256) (⟨(j 1).val, hj1⟩ : Fin 5632) := by
    funext a
    match a with
    | ⟨0, _⟩ => rfl
    | ⟨1, _⟩ => rfl
  show k2_pay1 (F := Ideal) (iblk2 V c 0 t) (iblk2 V c 1 t) ((cfg2.win 2).xinj (grid2.coords t) j)
      = Cert.Spec.stage2 (V c main_v4) (V c main_arg3) (((cfg2.win 2).blk t).view.emb j)
  refine (congrArg (k2_pay1 (F := Ideal) (iblk2 V c 0 t) (iblk2 V c 1 t)) hj).trans ?_
  refine (pay2_apply (iblk2 V c 0 t) (iblk2 V c 1 t) _ _).trans ?_
  have hnw : (iblk2 V c 1 t : Vec Ideal S5632 .f32) = V c main_arg3 := by
    funext y
    show V c main_arg3 (((cfg2.win 1).blk t).view.emb y) = V c main_arg3 y
    refine congrArg (V c main_arg3) ?_
    funext a
    apply Fin.ext
    match a with
    | ⟨0, _⟩ => show win2_1.index t (0 : Fin 1) * 5632 + 1 * (y 0).val = (y 0).val; omega
  have hrow : (fun h : Fin 5632 => (iblk2 V c 0 t : Vec Ideal S256x5632 .bf16) (ix2 (⟨(j 0).val, hj0⟩ : Fin 256) h))
      = fun h : Fin 5632 => V c main_v4 (ix2 (n0 := 8192) (n1 := 5632) ((((cfg2.win 2).blk t).view.emb j) 0) h) := by
    funext h
    show V c main_v4 (((cfg2.win 0).blk t).view.emb (ix2 (⟨(j 0).val, hj0⟩ : Fin 256) h)) = _
    refine congrArg (V c main_v4) ?_
    funext a
    apply Fin.ext
    match a with
    | ⟨0, _⟩ => show win2_0.index t (0 : Fin 2) * 256 + 1 * (j 0).val = win2_2.index t (0 : Fin 2) * 256 + 1 * (j 0).val; omega
    | ⟨1, _⟩ => show win2_0.index t (1 : Fin 2) * 5632 + 1 * h.val = h.val; omega
  have hq : (⟨(j 1).val, hj1⟩ : Fin 5632) = (((cfg2.win 2).blk t).view.emb j) 1 := by
    apply Fin.ext
    show (j 1).val = win2_2.index t (1 : Fin 2) * 5632 + 1 * (j 1).val
    omega
  unfold Cert.Spec.stage2
  rw [hrow, hnw, hq]

/-- An index of the array is in point `t`'s block iff each coordinate is in the block's range on its axis. -/
theorem mem_blk (t : Fin cfg2.N) (i : S8192x5632.Idx) :
    i ∈ ((cfg2.win 2).blk t).view.set ↔ ∀ a : Fin 2, win2_2.index t a * S256x5632.size a ≤ (i a).val ∧ (i a).val < win2_2.index t a * S256x5632.size a + S256x5632.size a := by
  show i ∈ ((View.whole main_v5).slice (win2_2.rect t)).set ↔ _
  rw [View.set_slice_whole, Rect.mem_set_unit]
  exact Iff.rfl

/-- Every index of the array is in the block of the point that holds its row. -/
theorem cover (i : S8192x5632.Idx) : ∃ t : Fin cfg2.N, (cfg2.win 2).flush t = true ∧ i ∈ ((cfg2.win 2).blk t).view.set := by
  have hi0 : (i 0).val < 8192 := (i 0).isLt
  have hi1 : (i 1).val < 5632 := (i 1).isLt
  have hN : cfg2.N = 32 := N_2
  let t : Fin cfg2.N := ⟨(i 0).val / 256, by rw [hN]; omega⟩
  obtain ⟨e00, e01, e10, e20, e21⟩ := idx_facts t
  have ht : t.val = (i 0).val / 256 := rfl
  refine ⟨t, flush2_2 t, ?_⟩
  rw [mem_blk]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 5632 ≤ (i 1).val ∧ (i 1).val < win2_2.index t (1 : Fin 2) * 5632 + 5632; omega

/-- THE ARRAY after region 2: steps 3 and 4 on every row of the region's input array. -/
theorem arr2 (V : (c : Dev nD) → (b : Ref sig .tc) → Buf (Elt Ideal) ((c : Thread nD τ).loc b)) (c : Dev nD) :
    (dat2 (F := Ideal) V c).arrAt 2 cfg2.N = Cert.Spec.stage2 (V c main_v4) (V c main_arg3) :=
  (dat2 (F := Ideal) V c).arrAt_eq_of_cover 2 (Cert.Spec.stage2 (V c main_v4) (V c main_arg3)) (fun t _ => flushed_eq V c t) cover

end Cert.KernelIdeal.Val2

end
-- ==== Proof.KI.Val3.lean ====
/-
  Region 3 at the ideal instance. Each grid point (i, n) writes back the 512 × 512 block of rows 512 i … 512 i + 511
  and columns 512 n … 512 n + 511 of the product of the hidden array (8192 × 5632) with the transpose of the second
  weight array (2048 × 5632): entry (r, d) is Σₕ q[r, h] · w2[d, h]. The 64 blocks fill the 8192 × 2048 result, so
  the array after the region is the last step of the specification, index by index.
-/
import proofs.«179057_j32478542693202_1_alg».proof.Proof.KI.Reg3
import proofs.«179057_j32478542693202_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val3

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The product of two blocks at an index -/

/-- The left operand's row is the result's row. -/
theorem lhs3_0 (i : S512x512.Idx) (q : dot_S512x5632_S512x5632_S512x512_1_1_0_0_n_n.contr.Idx) :
    (dot_S512x5632_S512x5632_S512x512_1_1_0_0_n_n.lhsIdx i q 0).val = (i 0).val := by
  unfold DotDims.lhsIdx
  rw [dif_neg (show ¬(0 : Fin S512x5632.rank) ∈ dot_S512x5632_S512x5632_S512x512_1_1_0_0_n_n.lhsBatch by decide), dif_pos (show (0 : Fin S512x5632.rank) ∈ dot_S512x5632_S512x5632_S512x512_1_1_0_0_n_n.lhsNonContracting by decide)]
  rfl
/-- The left operand's column is the summation index. -/
theorem lhs3_1 (i : S512x512.Idx) (q : dot_S512x5632_S512x5632_S512x512_1_1_0_0_n_n.contr.Idx) :
    (dot_S512x5632_S512x5632_S512x512_1_1_0_0_n_n.lhsIdx i q 1).val = (q ⟨0, by decide⟩).val :=
  dot_S512x5632_S512x5632_S512x512_1_1_0_0_n_n.lhsIdx_val_of_single rfl i q
/-- The right operand's row is the result's column. -/
theorem rhs3_0 (i : S512x512.Idx) (q : dot_S512x5632_S512x5632_S512x512_1_1_0_0_n_n.contr.Idx) :
    (dot_S512x5632_S512x5632_S512x512_1_1_0_0_n_n.rhsIdx i q 0).val = (i 1).val := by
  unfold DotDims.rhsIdx
  rw [dif_neg (show ¬(0 : Fin S512x5632.rank) ∈ dot_S512x5632_S512x5632_S512x512_1_1_0_0_n_n.rhsBatch by decide), dif_pos (show (0 : Fin S512x5632.rank) ∈ dot_S512x5632_S512x5632_S512x512_1_1_0_0_n_n.rhsNonContracting by decide)]
  rfl
/-- The right operand's column is the summation index. -/
theorem rhs3_1 (i : S512x512.Idx) (q : dot_S512x5632_S512x5632_S512x512_1_1_0_0_n_n.contr.Idx) :
    (dot_S512x5632_S512x5632_S512x512_1_1_0_0_n_n.rhsIdx i q 1).val = (q ⟨0, by decide⟩).val :=
  dot_S512x5632_S512x5632_S512x512_1_1_0_0_n_n.rhsIdx_val_of_single rfl i q

/-- Entry (p, q) of the body's stored value: row p of the first block against row q of the second. -/
theorem pay3_apply (x0 x1 : FVec Ideal S512x5632 .bf16) (p q : Fin 512) :
    k3_pay1 (F := Ideal) x0 x1 (ix2 p q) = ∑ h : Fin 5632, x0 (ix2 p h) * x1 (ix2 q h) := by
  unfold k3_pay1
  simp only [shapeCast_self]
  refine (Ideal.matmul_constant_zero_apply dot_S512x5632_S512x5632_S512x512_1_1_0_0_n_n none x0 x1 (ix2 p q)).trans ?_
  rw [← Equiv.sum_comp (contrEquiv1 dot_S512x5632_S512x5632_S512x512_1_1_0_0_n_n 5632 rfl rfl).symm]
  refine Finset.sum_congr rfl fun k _ => ?_
  have hk := contrEquiv1_symm_val dot_S512x5632_S512x5632_S512x512_1_1_0_0_n_n 5632 rfl rfl k
  have el : dot_S512x5632_S512x5632_S512x512_1_1_0_0_n_n.lhsIdx (ix2 p q) ((contrEquiv1 dot_S512x5632_S512x5632_S512x512_1_1_0_0_n_n 5632 rfl rfl).symm k) = ix2 p k := funext fun a => Fin.ext (by
    match a with
    | ⟨0, _⟩ => exact lhs3_0 _ _
    | ⟨1, _⟩ => exact (lhs3_1 _ _).trans hk)
  have er : dot_S512x5632_S512x5632_S512x512_1_1_0_0_n_n.rhsIdx (ix2 p q) ((contrEquiv1 dot_S512x5632_S512x5632_S512x512_1_1_0_0_n_n 5632 rfl rfl).symm k) = ix2 q k := funext fun a => Fin.ext (by
    match a with
    | ⟨0, _⟩ => exact rhs3_0 _ _
    | ⟨1, _⟩ => exact (rhs3_1 _ _).trans hk)
  rw [el, er]

/-- The same at any index of the block. -/
theorem pay3_idx (x0 x1 : FVec Ideal S512x5632 .bf16) (j : S512x512.Idx) :
    k3_pay1 (F := Ideal) x0 x1 j
      = ∑ h : Fin 5632, x0 (ix2 (n0 := 512) (n1 := 5632) (j 0) h) * x1 (ix2 (n0 := 512) (n1 := 5632) (j 1) h) := by
  obtain ⟨p, q, rfl⟩ : ∃ (p q : Fin 512), j = ix2 p q := ⟨j 0, j 1, eq_ix2 j⟩
  exact pay3_apply x0 x1 p q

/-! ## From the blocks to the array -/

theorem hz : (![0, 0] : Fin 2 → Nat) = fun _ => 0 := funext fun a => by fin_cases a <;> rfl

/-- The block indices at a grid point: the first input moves with the output's rows, the second with the output's
    columns, neither moves along the summed axis, and the output's block at point t is (t / 4, t % 4). -/
theorem idx3 : ∀ t : Fin cfg3.N,
    win3_0.index t (0 : Fin 2) = win3_2.index t (0 : Fin 2) ∧ win3_0.index t (1 : Fin 2) = 0
    ∧ win3_1.index t (0 : Fin 2) = win3_2.index t (1 : Fin 2) ∧ win3_1.index t (1 : Fin 2) = 0
    ∧ win3_2.index t (0 : Fin 2) = t.val / 4 ∧ win3_2.index t (1 : Fin 2) = t.val % 4 :=
  (by decide +kernel : ∀ t : Fin grid3.N, _)

/-- What point t writes back is its block of the specification's last step. -/
theorem flushed3_eq (V) (c : Dev nD) (t : Fin cfg3.N) :
    (dat3 (F := Ideal) V c).flushed 2 t
      = ((cfg3.win 2).blk t).view.read (Elt Ideal) (Cert.Spec.stage3 (V c main_v5) (V c main_v2)) := by
  show (cfg3.win 2).cut (grid3.coords t) ((dat3 (F := Ideal) V c).after 2 t) = _
  rw [after3_2]
  unfold out3_2
  rw [View.canon_unit_zero hz]
  simp only [View.ld_unit_zero (S := S512x5632) hz]
  obtain ⟨e0, e1, e2, e3, e4, e5⟩ := idx3 t
  funext j
  refine (pay3_idx _ _ _).trans ?_
  simp only [View.read_apply, Cert.Spec.stage3, Cert.Spec.proj]
  refine Finset.sum_congr rfl fun h _ => ?_
  have a0 : iblk3 (F := Ideal) V c 0 t (ix2 (n0 := 512) (n1 := 5632) ((win3 2).xinj (grid3.coords t) j 0) h)
      = V c main_v5 (ix2 (n0 := 8192) (n1 := 5632) ((((cfg3.win 2).blk t).view.emb j) 0) h) := by
    show V c main_v5 (((cfg3.win 0).blk t).view.emb (ix2 (n0 := 512) (n1 := 5632) ((win3 2).xinj (grid3.coords t) j 0) h)) = _
    refine congrArg (V c main_v5) (funext fun a => Fin.ext ?_)
    match a with
    | ⟨0, _⟩ => show win3_0.index t (0 : Fin 2) * 512 + 1 * (j 0).val = win3_2.index t (0 : Fin 2) * 512 + 1 * (j 0).val; omega
    | ⟨1, _⟩ => show win3_0.index t (1 : Fin 2) * 5632 + 1 * h.val = h.val; omega
  have a1 : iblk3 (F := Ideal) V c 1 t (ix2 (n0 := 512) (n1 := 5632) ((win3 2).xinj (grid3.coords t) j 1) h)
      = V c main_v2 (ix2 (n0 := 2048) (n1 := 5632) ((((cfg3.win 2).blk t).view.emb j) 1) h) := by
    show V c main_v2 (((cfg3.win 1).blk t).view.emb (ix2 (n0 := 512) (n1 := 5632) ((win3 2).xinj (grid3.coords t) j 1) h)) = _
    refine congrArg (V c main_v2) (funext fun a => Fin.ext ?_)
    match a with
    | ⟨0, _⟩ => show win3_1.index t (0 : Fin 2) * 512 + 1 * (j 1).val = win3_2.index t (1 : Fin 2) * 512 + 1 * (j 1).val; omega
    | ⟨1, _⟩ => show win3_1.index t (1 : Fin 2) * 5632 + 1 * h.val = h.val; omega
  rw [a0, a1]

/-- An index of the result is in point t's block iff each coordinate is in the block's range on its axis. -/
theorem mem_blk3 (t : Fin cfg3.N) (i : S8192x2048.Idx) :
    i ∈ ((cfg3.win 2).blk t).view.set ↔ ∀ a : Fin 2, win3_2.index t a * S512x512.size a ≤ (i a).val ∧ (i a).val < win3_2.index t a * S512x512.size a + S512x512.size a := by
  show i ∈ ((View.whole main_v6).slice (win3_2.rect t)).set ↔ _
  rw [View.set_slice_whole, Rect.mem_set_unit]
  exact Iff.rfl

/-- Entry (r, d) of the result lies in the block of point 4 (r / 512) + d / 512. -/
theorem cover3 (i : S8192x2048.Idx) :
    ∃ t : Fin cfg3.N, (cfg3.win 2).flush t = true ∧ i ∈ ((cfg3.win 2).blk t).view.set := by
  have hi0 : (i 0).val < 8192 := (i 0).isLt
  have hi1 : (i 1).val < 2048 := (i 1).isLt
  have hN : cfg3.N = 64 := N_3
  have ht : (i 0).val / 512 * 4 + (i 1).val / 512 < cfg3.N := by rw [hN]; omega
  obtain ⟨-, -, -, -, e4, e5⟩ := idx3 ⟨(i 0).val / 512 * 4 + (i 1).val / 512, ht⟩
  have q0 : win3_2.index ⟨(i 0).val / 512 * 4 + (i 1).val / 512, ht⟩ (0 : Fin 2) = (i 0).val / 512 := by
    rw [e4]; show ((i 0).val / 512 * 4 + (i 1).val / 512) / 4 = _; omega
  have q1 : win3_2.index ⟨(i 0).val / 512 * 4 + (i 1).val / 512, ht⟩ (1 : Fin 2) = (i 1).val / 512 := by
    rw [e5]; show ((i 0).val / 512 * 4 + (i 1).val / 512) % 4 = _; omega
  refine ⟨⟨(i 0).val / 512 * 4 + (i 1).val / 512, ht⟩, flush3_2 _, ?_⟩
  rw [mem_blk3]
  intro a
  match a with
  | ⟨0, _⟩ =>
    show win3_2.index ⟨(i 0).val / 512 * 4 + (i 1).val / 512, ht⟩ (0 : Fin 2) * 512 ≤ (i 0).val
      ∧ (i 0).val < win3_2.index ⟨(i 0).val / 512 * 4 + (i 1).val / 512, ht⟩ (0 : Fin 2) * 512 + 512
    rw [q0]; omega
  | ⟨1, _⟩ =>
    show win3_2.index ⟨(i 0).val / 512 * 4 + (i 1).val / 512, ht⟩ (1 : Fin 2) * 512 ≤ (i 1).val
      ∧ (i 1).val < win3_2.index ⟨(i 0).val / 512 * 4 + (i 1).val / 512, ht⟩ (1 : Fin 2) * 512 + 512
    rw [q1]; omega

/-- The result array after the region is the specification's last step of the hidden array and the second weights. -/
theorem arr3 (V) (c : Dev nD) : (dat3 (F := Ideal) V c).arrAt 2 cfg3.N = Cert.Spec.stage3 (V c main_v5) (V c main_v2) :=
  (dat3 (F := Ideal) V c).arrAt_eq_of_cover 2 (Cert.Spec.stage3 (V c main_v5) (V c main_v2)) (fun t _ => flushed3_eq V c t) cover3

end Cert.KernelIdeal.Val3

end
-- ==== Proof.KI.ValMain.lean ====
/-
  The idealized kernel's result, at the ideal instance: the last boundary's contents of the result buffer are
  `Spec.out` of the launch contents of the four arguments. The fold is walked back region by region — each region's
  output array is its step of the mathematics applied to its input arrays (the four region lemmas), the format
  changes are the identity on the extended reals, and the two reshapes re-index rows: row r of the 8192 × 2048 view
  is row (r / 2048, r % 2048) of the [4, 2048, 2048] array.
-/
import proofs.«179057_j32478542693202_1_alg».proof.Proof.KI.Fold
import proofs.«179057_j32478542693202_1_alg».proof.Proof.KI.Val0
import proofs.«179057_j32478542693202_1_alg».proof.Proof.KI.Val1
import proofs.«179057_j32478542693202_1_alg».proof.Proof.KI.Val2
import proofs.«179057_j32478542693202_1_alg».proof.Proof.KI.Val3
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Frame
open Cert.KernelIdeal.Val0 (arr0)
open Cert.KernelIdeal.Val1 (arr1)
open Cert.KernelIdeal.Val2 (arr2)
open Cert.KernelIdeal.Val3 (arr3)
open Idealize.ShloMosaic Idealize.ShloMosaic.TcCoe Idealize.ShloMosaic.ValueIdx
open Idealize.SL Idealize.SL.Sem

variable (m : (ℓ : Loc nD τ sig) → Buf (Elt Ideal) ℓ)

/-! ## What the two host stretches write -/

theorem W1_main_v0 (c : Dev nD) :
    W1 m c (Proc.devRef .tc main_v0) = shapeCast S8192x2048 (m ((c : Thread nD τ).loc main_arg0)) shapeCasts_S4x2048x2048_S8192x2048 := by
  show StableHlo.after hostOps0 (W0 m c) (Proc.devRef .tc main_v0) = _
  after_results
  rfl

/-- The conversion of the first weight array to bf16 is the identity on the extended reals. -/
theorem W1_main_v1 (c : Dev nD) : W1 m c (Proc.devRef .tc main_v1) = m ((c : Thread nD τ).loc main_arg1) := by
  show StableHlo.after hostOps0 (W0 m c) (Proc.devRef .tc main_v1) = _
  after_results
  rfl

theorem W1_main_v2 (c : Dev nD) : W1 m c (Proc.devRef .tc main_v2) = m ((c : Thread nD τ).loc main_arg2) := by
  show StableHlo.after hostOps0 (W0 m c) (Proc.devRef .tc main_v2) = _
  after_results
  rfl

theorem W6_main_v7 (c : Dev nD) :
    W6 m c (Proc.devRef .tc main_v7) = shapeCast S4x2048x2048 (W5 m c (Proc.devRef .tc main_v6)) shapeCasts_S8192x2048_S4x2048x2048 := by
  show StableHlo.after hostOps4 (W5 m c) (Proc.devRef .tc main_v7) = _
  after_results
  rfl

/-! ## The reshapes re-index rows -/

/-- The five steps array by array on the 8192-row view, reshaped back, are the five steps on every row (b, s). -/
theorem reshape_rows (x : S4x2048x2048.Idx → EReal) (w13 : S11264x2048.Idx → EReal) (w2 : S2048x5632.Idx → EReal) (nw : S5632.Idx → EReal) :
    shapeCast S4x2048x2048 (Cert.Spec.stage3 (Cert.Spec.stage2 (Cert.Spec.stage1 (Cert.Spec.stage0
        (shapeCast S8192x2048 x shapeCasts_S4x2048x2048_S8192x2048)) w13) nw) w2) shapeCasts_S8192x2048_S4x2048x2048
      = Cert.Spec.out x w13 w2 nw := by
  funext j
  obtain ⟨b, s, d, rfl⟩ : ∃ (b : Fin 4) (s : Fin 2048) (d : Fin 2048), j = ix3 b s d := ⟨j 0, j 1, j 2, eq_ix3 j⟩
  have hr : b.val * 2048 + s.val < 8192 := by have := b.isLt; have := s.isLt; omega
  rw [shapeCast_apply _ shapeCasts_S8192x2048_S4x2048x2048 (ix3 b s d) (ix2 (n0 := 8192) (n1 := 2048) ⟨b.val * 2048 + s.val, hr⟩ d)
    (by rw [Shape.rowMajor_val_two, Shape.rowMajor_val_three]; rfl)]
  rw [Cert.Spec.stages_row]
  show Cert.Spec.row _ w13 w2 nw d = Cert.Spec.row (fun k : Fin 2048 => x (ix3 b s k)) w13 w2 nw d
  congr 1
  funext k
  exact shapeCast_apply x shapeCasts_S4x2048x2048_S8192x2048 (ix2 (n0 := 8192) (n1 := 2048) ⟨b.val * 2048 + s.val, hr⟩ k) (ix3 b s k)
    (by rw [Shape.rowMajor_val_two, Shape.rowMajor_val_three]; rfl)

/-! ## The result -/

/-- The result buffer ends at `Spec.out` of the arguments. -/
theorem result_eq (c : Dev nD) :
    W6 m c (Proc.devRef .tc main_v7)
      = Cert.Spec.out (m ((c : Thread nD τ).loc main_arg0)) (m ((c : Thread nD τ).loc main_arg1)) (m ((c : Thread nD τ).loc main_arg2)) (m ((c : Thread nD τ).loc main_arg3)) := by
  rw [W6_main_v7, V5_main_v6, arr3, V4_main_v5, arr2, V3_main_v4, arr1, V2_main_v3, arr0, V4_main_v2, V3_main_arg3, V2_main_v1,
    W1_main_v2, W1_main_v1]
  show shapeCast S4x2048x2048 (Cert.Spec.stage3 (Cert.Spec.stage2 (Cert.Spec.stage1 (Cert.Spec.stage0 (W1 m c (Proc.devRef .tc main_v0))) _) _) _) _ = _
  rw [W1_main_v0]
  exact reshape_rows _ _ _ _

end Cert.KernelIdeal.Val

end
-- ==== Proof.RefRunH.lean ====
/- The reference program's run, read back one stretch of operations at a time.
   @main is a straight line of 73 host operations. The line is cut where few values are live:
   after the quantised input (main_v11), after the gated product (main_v17), after the normalised
   rows (main_v30), after the second quantisation (main_v42); the last stretch is the closing
   contraction (main_v43). For any buffer contents W at a stretch's entry, the contents it leaves
   in its last buffer are the stretch's operations applied to W at the buffer it reads and at the
   arguments, and the arguments are left as they were. Each stretch is then identified with the
   per-operation stage of the same name, the stage before it kept as one folded value, so no
   intermediate value is ever written out twice. -/
import proofs.«179057_j32478542693202_1_alg».proof.Proof.RefRun
import proofs.«179057_j32478542693202_1_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The first stretch: the row maxima of the input, its scale, the quantised input (main_v11). -/
abbrev opsA : List (HloOp τ sig (Elt F)) :=
  [ unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S4x2048x1 ![] bcast_S_S4x2048x1) : (⟨S_, .f32⟩ : BufTy).Contents (Elt F) → (⟨S4x2048x1, .f32⟩ : BufTy).Contents (Elt F)),
    binary main_call0_v1 main_v2 main_v3 (maximumf : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    unary main_v7 main_v8 (Host.roundeven : (⟨S4x2048x2048, .f32⟩ : BufTy).Contents (Elt F) → (⟨S4x2048x2048, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 ((broadcastInDim S4x2048x2048 ![] bcast_S_S4x2048x2048) : (⟨S_, .f32⟩ : BufTy).Contents (Elt F) → (⟨S4x2048x2048, .f32⟩ : BufTy).Contents (Elt F)),
    binary main_call2_v1 main_v8 main_call2_v2 (maximumf : (⟨S4x2048x2048, .f32⟩ : BufTy).Contents (Elt F) → (⟨S4x2048x2048, .f32⟩ : BufTy).Contents (Elt F) → (⟨S4x2048x2048, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S4x2048x2048 ![] bcast_S_S4x2048x2048) : (⟨S_, .f32⟩ : BufTy).Contents (Elt F) → (⟨S4x2048x2048, .f32⟩ : BufTy).Contents (Elt F)),
    binary main_call2_v4 main_call2_v2 main_v9 (minimumf : (⟨S4x2048x2048, .f32⟩ : BufTy).Contents (Elt F) → (⟨S4x2048x2048, .f32⟩ : BufTy).Contents (Elt F) → (⟨S4x2048x2048, .f32⟩ : BufTy).Contents (Elt F)),
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)) ]

/-- The second stretch: the first contraction, its two halves, the gated product (main_v17). -/
abbrev opsB : List (HloOp τ sig (Elt F)) :=
  [ binary main_v11 main_arg1 main_v12 ((fun l r => Host.dotGeneral dot_S4x2048x2048_S11264x2048_S4x2048x11264_2_1_01_0_n_n none l r) : (⟨S4x2048x2048, .f32⟩ : BufTy).Contents (Elt F) → (⟨S11264x2048, .f32⟩ : BufTy).Contents (Elt F) → (⟨S4x2048x11264, .f32⟩ : BufTy).Contents (Elt F)),
    unary main_v12 main_v13 ((extractStridedSlice S4x2048x5632 ![0, 0, 0] · slices_S4x2048x11264_S4x2048x5632_0_0_0) : (⟨S4x2048x11264, .f32⟩ : BufTy).Contents (Elt F) → (⟨S4x2048x5632, .f32⟩ : BufTy).Contents (Elt F)),
    unary main_v12 main_v14 ((extractStridedSlice S4x2048x5632 ![0, 0, 5632] · slices_S4x2048x11264_S4x2048x5632_0_0_5632) : (⟨S4x2048x11264, .f32⟩ : BufTy).Contents (Elt F) → (⟨S4x2048x5632, .f32⟩ : BufTy).Contents (Elt F)),
    nullary main_call3_cst ((constant S_ .f32 0x00000000#32) : (⟨S_, .f32⟩ : BufTy).Contents (Elt F)),
    unary main_call3_cst main_call3_v0 ((broadcastInDim S4x2048x5632 ![] bcast_S_S4x2048x5632) : (⟨S_, .f32⟩ : BufTy).Contents (Elt F) → (⟨S4x2048x5632, .f32⟩ : BufTy).Contents (Elt F)),
    binary main_v13 main_call3_v0 main_v15 (maximumf : (⟨S4x2048x5632, .f32⟩ : BufTy).Contents (Elt F) → (⟨S4x2048x5632, .f32⟩ : BufTy).Contents (Elt F) → (⟨S4x2048x5632, .f32⟩ : BufTy).Contents (Elt F)),
    binary main_v15 main_v15 main_v16 (mulf : (⟨S4x2048x5632, .f32⟩ : BufTy).Contents (Elt F) → (⟨S4x2048x5632, .f32⟩ : BufTy).Contents (Elt F) → (⟨S4x2048x5632, .f32⟩ : BufTy).Contents (Elt F)),
    binary main_v16 main_v14 main_v17 (mulf : (⟨S4x2048x5632, .f32⟩ : BufTy).Contents (Elt F) → (⟨S4x2048x5632, .f32⟩ : BufTy).Contents (Elt F) → (⟨S4x2048x5632, .f32⟩ : BufTy).Contents (Elt F)) ]

/-- The third stretch: the mean square of each row, its reciprocal root, the normalised and weighted rows (main_v30). -/
abbrev opsC : List (HloOp τ sig (Elt F)) :=
  [ binary main_v17 main_v17 main_v18 (mulf : (⟨S4x2048x5632, .f32⟩ : BufTy).Contents (Elt F) → (⟨S4x2048x5632, .f32⟩ : BufTy).Contents (Elt F) → (⟨S4x2048x5632, .f32⟩ : BufTy).Contents (Elt F)),
    nullary main_cst_4 (constant S_ .f32 0x00000000#32),
    binary main_v18 main_cst_4 main_v19 ((fun x v => Host.reduceAdd x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)),
    unary main_v19 main_v20 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_5 (constant S_ .f32 0x45B00000#32),
    unary main_cst_5 main_v21 (broadcastInDim S4x2048x1 ![] bcast_S_S4x2048x1 : (⟨S_, .f32⟩ : BufTy).Contents (Elt F) → (⟨S4x2048x1, .f32⟩ : BufTy).Contents (Elt F)),
    binary main_v20 main_v21 main_v22 (Host.divf : (⟨S4x2048x1, .f32⟩ : BufTy).Contents (Elt F) → (⟨S4x2048x1, .f32⟩ : BufTy).Contents (Elt F) → (⟨S4x2048x1, .f32⟩ : BufTy).Contents (Elt F)),
    nullary main_cst_6 (constant S_ .f32 0x3727C5AC#32),
    unary main_cst_6 main_v23 (broadcastInDim S4x2048x1 ![] bcast_S_S4x2048x1 : (⟨S_, .f32⟩ : BufTy).Contents (Elt F) → (⟨S4x2048x1, .f32⟩ : BufTy).Contents (Elt F)),
    binary main_v22 main_v23 main_v24 (addf : (⟨S4x2048x1, .f32⟩ : BufTy).Contents (Elt F) → (⟨S4x2048x1, .f32⟩ : BufTy).Contents (Elt F) → (⟨S4x2048x1, .f32⟩ : BufTy).Contents (Elt F)),
    unary main_v24 main_v25 (Host.rsqrt : (⟨S4x2048x1, .f32⟩ : BufTy).Contents (Elt F) → (⟨S4x2048x1, .f32⟩ : BufTy).Contents (Elt F)),
    unary main_v25 main_v26 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v17 main_v26 main_v27 (mulf : (⟨S4x2048x5632, .f32⟩ : BufTy).Contents (Elt F) → (⟨S4x2048x5632, .f32⟩ : BufTy).Contents (Elt F) → (⟨S4x2048x5632, .f32⟩ : BufTy).Contents (Elt F)),
    unary main_arg3 main_v28 (broadcastInDim S1x1x5632 ![2] bcast_S5632_S1x1x5632_2 : (⟨S5632, .f32⟩ : BufTy).Contents (Elt F) → (⟨S1x1x5632, .f32⟩ : BufTy).Contents (Elt F)),
    unary main_v28 main_v29 (broadcastInDim S4x2048x5632 ![0, 1, 2] bcast_S1x1x5632_S4x2048x5632_0_1_2 : (⟨S1x1x5632, .f32⟩ : BufTy).Contents (Elt F) → (⟨S4x2048x5632, .f32⟩ : BufTy).Contents (Elt F)),
    binary main_v27 main_v29 main_v30 (mulf : (⟨S4x2048x5632, .f32⟩ : BufTy).Contents (Elt F) → (⟨S4x2048x5632, .f32⟩ : BufTy).Contents (Elt F) → (⟨S4x2048x5632, .f32⟩ : BufTy).Contents (Elt F)) ]

/-- The fourth stretch: the row maxima of the normalised rows, their scale, the second quantisation (main_v42). -/
abbrev opsD : List (HloOp τ sig (Elt F)) :=
  [ unary main_v30 main_v31 (Host.absf : (⟨S4x2048x5632, .f32⟩ : BufTy).Contents (Elt F) → (⟨S4x2048x5632, .f32⟩ : BufTy).Contents (Elt F)),
    nullary main_cst_7 (constant S_ .f32 0xFF800000#32),
    binary main_v31 main_cst_7 main_v32 ((fun x v => Host.reduce FloatOps.maximumf x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)),
    unary main_v32 main_v33 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_8 (constant S_ .f32 0x3727C5AC#32),
    unary main_cst_8 main_call4_v0 (id : (⟨S_, .f32⟩ : BufTy).Contents (Elt F) → (⟨S_, .f32⟩ : BufTy).Contents (Elt F)),
    unary main_call4_v0 main_call4_v1 ((broadcastInDim S4x2048x1 ![] bcast_S_S4x2048x1) : (⟨S_, .f32⟩ : BufTy).Contents (Elt F) → (⟨S4x2048x1, .f32⟩ : BufTy).Contents (Elt F)),
    binary main_call4_v1 main_v33 main_v34 (maximumf : (⟨S4x2048x1, .f32⟩ : BufTy).Contents (Elt F) → (⟨S4x2048x1, .f32⟩ : BufTy).Contents (Elt F) → (⟨S4x2048x1, .f32⟩ : BufTy).Contents (Elt F)),
    nullary main_cst_9 (constant S_ .f32 0x42FE0000#32),
    unary main_cst_9 main_v35 (broadcastInDim S4x2048x1 ![] bcast_S_S4x2048x1 : (⟨S_, .f32⟩ : BufTy).Contents (Elt F) → (⟨S4x2048x1, .f32⟩ : BufTy).Contents (Elt F)),
    binary main_v35 main_v34 main_v36 (Host.divf : (⟨S4x2048x1, .f32⟩ : BufTy).Contents (Elt F) → (⟨S4x2048x1, .f32⟩ : BufTy).Contents (Elt F) → (⟨S4x2048x1, .f32⟩ : BufTy).Contents (Elt F)),
    unary main_v36 main_v37 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v30 main_v37 main_v38 (mulf : (⟨S4x2048x5632, .f32⟩ : BufTy).Contents (Elt F) → (⟨S4x2048x5632, .f32⟩ : BufTy).Contents (Elt F) → (⟨S4x2048x5632, .f32⟩ : BufTy).Contents (Elt F)),
    unary main_v38 main_v39 (Host.roundeven : (⟨S4x2048x5632, .f32⟩ : BufTy).Contents (Elt F) → (⟨S4x2048x5632, .f32⟩ : BufTy).Contents (Elt F)),
    nullary main_cst_10 (constant S_ .f32 0xC3000000#32),
    nullary main_cst_11 (constant S_ .f32 0x42FE0000#32),
    unary main_cst_10 main_call6_v0 (id : (⟨S_, .f32⟩ : BufTy).Contents (Elt F) → (⟨S_, .f32⟩ : BufTy).Contents (Elt F)),
    unary main_call6_v0 main_call6_v1 ((broadcastInDim S4x2048x5632 ![] bcast_S_S4x2048x5632) : (⟨S_, .f32⟩ : BufTy).Contents (Elt F) → (⟨S4x2048x5632, .f32⟩ : BufTy).Contents (Elt F)),
    binary main_call6_v1 main_v39 main_call6_v2 (maximumf : (⟨S4x2048x5632, .f32⟩ : BufTy).Contents (Elt F) → (⟨S4x2048x5632, .f32⟩ : BufTy).Contents (Elt F) → (⟨S4x2048x5632, .f32⟩ : BufTy).Contents (Elt F)),
    unary main_cst_11 main_call6_v3 (id : (⟨S_, .f32⟩ : BufTy).Contents (Elt F) → (⟨S_, .f32⟩ : BufTy).Contents (Elt F)),
    unary main_call6_v3 main_call6_v4 ((broadcastInDim S4x2048x5632 ![] bcast_S_S4x2048x5632) : (⟨S_, .f32⟩ : BufTy).Contents (Elt F) → (⟨S4x2048x5632, .f32⟩ : BufTy).Contents (Elt F)),
    binary main_call6_v4 main_call6_v2 main_v40 (minimumf : (⟨S4x2048x5632, .f32⟩ : BufTy).Contents (Elt F) → (⟨S4x2048x5632, .f32⟩ : BufTy).Contents (Elt F) → (⟨S4x2048x5632, .f32⟩ : BufTy).Contents (Elt F)),
    unary main_v36 main_v41 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v40 main_v41 main_v42 (Host.divf : (⟨S4x2048x5632, .f32⟩ : BufTy).Contents (Elt F) → (⟨S4x2048x5632, .f32⟩ : BufTy).Contents (Elt F) → (⟨S4x2048x5632, .f32⟩ : BufTy).Contents (Elt F)) ]

/-- The last stretch: the closing contraction (main_v43). -/
abbrev opsE : List (HloOp τ sig (Elt F)) :=
  [ binary main_v42 main_arg2 main_v43 ((fun l r => Host.dotGeneral dot_S4x2048x5632_S2048x5632_S4x2048x2048_2_1_01_0_n_n none l r) : (⟨S4x2048x5632, .f32⟩ : BufTy).Contents (Elt F) → (⟨S2048x5632, .f32⟩ : BufTy).Contents (Elt F) → (⟨S4x2048x2048, .f32⟩ : BufTy).Contents (Elt F)) ]

set_option maxRecDepth 8192 in
/-- The line is its five stretches in a row. In the stretches an operation of a called function is written with the
    plain builder at its buffers: its function between the buffers' own types is the called function's, the
    transports along the buffers' types being identities. -/
theorem ops_split : (ops : List (HloOp τ sig (Elt F))) = opsA ++ (opsB ++ (opsC ++ (opsD ++ opsE))) := rfl

/-! ### What each stretch leaves the arguments: what was there -/

theorem afterA_arg1 (W : Valuation τ sig (Elt F)) :
    after opsA W (Proc.devRef .tc main_arg1) = W (Proc.devRef .tc main_arg1) := by
  after_results_simp
theorem afterA_arg2 (W : Valuation τ sig (Elt F)) :
    after opsA W (Proc.devRef .tc main_arg2) = W (Proc.devRef .tc main_arg2) := by
  after_results_simp
theorem afterA_arg3 (W : Valuation τ sig (Elt F)) :
    after opsA W (Proc.devRef .tc main_arg3) = W (Proc.devRef .tc main_arg3) := by
  after_results_simp
theorem afterB_arg2 (W : Valuation τ sig (Elt F)) :
    after opsB W (Proc.devRef .tc main_arg2) = W (Proc.devRef .tc main_arg2) := by
  after_results_simp
theorem afterB_arg3 (W : Valuation τ sig (Elt F)) :
    after opsB W (Proc.devRef .tc main_arg3) = W (Proc.devRef .tc main_arg3) := by
  after_results_simp
theorem afterC_arg2 (W : Valuation τ sig (Elt F)) :
    after opsC W (Proc.devRef .tc main_arg2) = W (Proc.devRef .tc main_arg2) := by
  after_results_simp
theorem afterD_arg2 (W : Valuation τ sig (Elt F)) :
    after opsD W (Proc.devRef .tc main_arg2) = W (Proc.devRef .tc main_arg2) := by
  after_results_simp

/-! ### What each stretch leaves in its last buffer -/

set_option maxRecDepth 8192 in
/-- From any contents, the first stretch leaves main_v11 at its stage of the first argument. -/
theorem afterA (W : Valuation τ sig (Elt F)) :
    after opsA W (Proc.devRef .tc main_v11) = Read.val_main_v11 (F := F) (W (Proc.devRef .tc main_arg0)) := by
  after_results_simp <;> rfl

set_option maxRecDepth 8192 in
/-- If main_v11 holds its stage, the second stretch leaves main_v17 at its stage. -/
theorem afterB (W : Valuation τ sig (Elt F)) (x0 : (⟨S4x2048x2048, .f32⟩ : BufTy).Contents (Elt F))
    (h : W (Proc.devRef .tc main_v11) = Read.val_main_v11 (F := F) x0) :
    after opsB W (Proc.devRef .tc main_v17) = Read.val_main_v17 (F := F) x0 (W (Proc.devRef .tc main_arg1)) := by
  after_results_simp
  rw [h]; rfl

set_option maxRecDepth 8192 in
/-- If main_v17 holds its stage, the third stretch leaves main_v30 at its stage. -/
theorem afterC (W : Valuation τ sig (Elt F)) (x0 : (⟨S4x2048x2048, .f32⟩ : BufTy).Contents (Elt F)) (x1 : (⟨S11264x2048, .f32⟩ : BufTy).Contents (Elt F))
    (h : W (Proc.devRef .tc main_v17) = Read.val_main_v17 (F := F) x0 x1) :
    after opsC W (Proc.devRef .tc main_v30) = Read.val_main_v30 (F := F) x0 x1 (W (Proc.devRef .tc main_arg3)) := by
  after_results_simp
  rw [h]; rfl

set_option maxRecDepth 8192 in
/-- If main_v30 holds its stage, the fourth stretch leaves main_v42 at its stage. -/
theorem afterD (W : Valuation τ sig (Elt F)) (x0 : (⟨S4x2048x2048, .f32⟩ : BufTy).Contents (Elt F)) (x1 : (⟨S11264x2048, .f32⟩ : BufTy).Contents (Elt F)) (x3 : (⟨S5632, .f32⟩ : BufTy).Contents (Elt F))
    (h : W (Proc.devRef .tc main_v30) = Read.val_main_v30 (F := F) x0 x1 x3) :
    after opsD W (Proc.devRef .tc main_v42) = Read.val_main_v42 (F := F) x0 x1 x3 := by
  after_results_simp
  rw [h]; rfl

/-- If main_v42 holds its stage, the last stretch leaves main_v43 at its stage. -/
theorem afterE (W : Valuation τ sig (Elt F)) (x0 : (⟨S4x2048x2048, .f32⟩ : BufTy).Contents (Elt F)) (x1 : (⟨S11264x2048, .f32⟩ : BufTy).Contents (Elt F)) (x3 : (⟨S5632, .f32⟩ : BufTy).Contents (Elt F))
    (h : W (Proc.devRef .tc main_v42) = Read.val_main_v42 (F := F) x0 x1 x3) :
    after opsE W (Proc.devRef .tc main_v43) = Read.val_main_v43 (F := F) x0 x1 (W (Proc.devRef .tc main_arg2)) x3 := by
  after_results_simp
  rw [h]; rfl

/-! ### The whole line -/

/-- From any contents W, the whole line leaves main_v43 at its stage of W at the four arguments: the five stretches
    in a row, each stretch's entry value being the stage the stretch before it left, and the arguments carried
    across the stretches that do not write them. -/
theorem after_v43 (W : Valuation τ sig (Elt F)) :
    after ops W (Proc.devRef .tc main_v43)
      = Read.val_main_v43 (F := F) (W (Proc.devRef .tc main_arg0)) (W (Proc.devRef .tc main_arg1)) (W (Proc.devRef .tc main_arg2)) (W (Proc.devRef .tc main_arg3)) := by
  rw [ops_split, after_append, after_append, after_append, after_append]
  have hA := afterA W
  have hB := afterB (after opsA W) _ hA
  rw [afterA_arg1] at hB
  have hC := afterC (after opsB (after opsA W)) _ _ hB
  rw [afterB_arg3, afterA_arg3] at hC
  have hD := afterD (after opsC (after opsB (after opsA W))) _ _ _ hC
  have hE := afterE (after opsD (after opsC (after opsB (after opsA W)))) _ _ _ hD
  rw [afterD_arg2, afterC_arg2, afterB_arg2, afterA_arg2] at hE
  exact hE

set_option maxRecDepth 8192 in
/-- On every device, for any float values, from any memory with zero counters: every weakly fair execution of
    @main terminates with the result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = Cert.ReferenceIdeal.Read.val_main_v43 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v43).trans (after_v43 (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunH

end
-- ==== Proof.RefSpec.lean ====
/-
  The reference program is the specification: read one row at a time, its operations are the five steps of
  `Cert.Spec.row`. Each step is one lemma about one row (b, s) of the arrays; the next step takes the earlier one's
  row as an unnamed function, so no term grows.
    1. the quantiser's row maximum, scale and quantised entry on the input rows (2048 long);
    2. the two projections against the halves of the first weight array, gated;
    3. the RMS normalisation;
    4. the quantiser again, on the hidden rows (5632 long);
    5. the projection against the second weight array.
-/
import proofs.«179057_j32478542693202_1_alg».proof.Proof.RefRead
import proofs.«179057_j32478542693202_1_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx

/-! ## Where the composed index maps send an index given by its coordinates -/

/-- Row (b, s) of a [4, 2048, 2048] array with `k` put back on the reduced axis is (b, s, k). -/
theorem lift_2048 (h : S4x2048x2048.Reduces [2] S4x2048) (b : Fin 4) (s : Fin 2048) (k : Fin 2048) :
    h.lift (ix2 b s) k = ix3 b s k := funext fun a => Fin.ext (by match a with | ⟨0, _⟩ => rfl | ⟨1, _⟩ => rfl | ⟨2, _⟩ => rfl)
/-- The same for a [4, 2048, 5632] array. -/
theorem lift_5632 (h : S4x2048x5632.Reduces [2] S4x2048) (b : Fin 4) (s : Fin 2048) (k : Fin 5632) :
    h.lift (ix2 b s) k = ix3 b s k := funext fun a => Fin.ext (by match a with | ⟨0, _⟩ => rfl | ⟨1, _⟩ => rfl | ⟨2, _⟩ => rfl)

theorem idx_v2 (b : Fin 4) (s : Fin 2048) (z : Fin 1) : idx_main_v2 (ix3 b s z) = ix2 b s := funext fun a => Fin.ext (by match a with | ⟨0, _⟩ => rfl | ⟨1, _⟩ => rfl)
theorem idx_v6 (b : Fin 4) (s : Fin 2048) (k : Fin 2048) : idx_main_v6 (ix3 b s k) = ix3 b s (0 : Fin 1) := funext fun a => Fin.ext (by match a with | ⟨0, _⟩ => rfl | ⟨1, _⟩ => rfl | ⟨2, _⟩ => rfl)
theorem idx_v10 (b : Fin 4) (s : Fin 2048) (k : Fin 2048) : idx_main_v10 (ix3 b s k) = ix3 b s (0 : Fin 1) := funext fun a => Fin.ext (by match a with | ⟨0, _⟩ => rfl | ⟨1, _⟩ => rfl | ⟨2, _⟩ => rfl)
theorem idx_v13 (b : Fin 4) (s : Fin 2048) (j : Fin 5632) :
    idx_main_v13 (ix3 b s j) = ix3 b s (⟨j.val, by omega⟩ : Fin 11264) := funext fun a => Fin.ext (by match a with | ⟨0, _⟩ => rfl | ⟨1, _⟩ => rfl | ⟨2, _⟩ => rfl)
theorem idx_v14 (b : Fin 4) (s : Fin 2048) (j : Fin 5632) :
    idx_main_v14 (ix3 b s j) = ix3 b s (⟨j.val + 5632, by omega⟩ : Fin 11264) :=
  funext fun a => Fin.ext (by match a with | ⟨0, _⟩ => rfl | ⟨1, _⟩ => rfl | ⟨2, _⟩ => exact Nat.add_comm _ _)
theorem lidx_v12 (b : Fin 4) (s : Fin 2048) (J : Fin 11264) (k : Fin 2048) : lidx_main_v12 (ix3 b s J) k = ix3 b s k := funext fun a => Fin.ext (by match a with | ⟨0, _⟩ => rfl | ⟨1, _⟩ => rfl | ⟨2, _⟩ => rfl)
theorem ridx_v12 (b : Fin 4) (s : Fin 2048) (J : Fin 11264) (k : Fin 2048) : ridx_main_v12 (ix3 b s J) k = ix2 J k := funext fun a => Fin.ext (by match a with | ⟨0, _⟩ => rfl | ⟨1, _⟩ => rfl)
theorem idx_v19 (b : Fin 4) (s : Fin 2048) (k : Fin 5632) : idx_main_v19 (ix2 b s) k = ix3 b s k := funext fun a => Fin.ext (by match a with | ⟨0, _⟩ => rfl | ⟨1, _⟩ => rfl | ⟨2, _⟩ => rfl)
theorem idx_v20 (b : Fin 4) (s : Fin 2048) (z : Fin 1) : idx_main_v20 (ix3 b s z) = ix2 b s := funext fun a => Fin.ext (by match a with | ⟨0, _⟩ => rfl | ⟨1, _⟩ => rfl)
theorem idx_v26 (b : Fin 4) (s : Fin 2048) (h : Fin 5632) : idx_main_v26 (ix3 b s h) = ix3 b s (0 : Fin 1) := funext fun a => Fin.ext (by match a with | ⟨0, _⟩ => rfl | ⟨1, _⟩ => rfl | ⟨2, _⟩ => rfl)
theorem idx_v29 (b : Fin 4) (s : Fin 2048) (h : Fin 5632) : idx_main_v29 (ix3 b s h) = ix3 (0 : Fin 1) (0 : Fin 1) h := funext fun a => Fin.ext (by match a with | ⟨0, _⟩ => rfl | ⟨1, _⟩ => rfl | ⟨2, _⟩ => rfl)
theorem idx_v28 (h : Fin 5632) : idx_main_v28 (ix3 (0 : Fin 1) (0 : Fin 1) h) = ix1 h :=
  funext fun a => Fin.ext (by match a with | ⟨0, _⟩ => rfl)
theorem idx_v33 (b : Fin 4) (s : Fin 2048) (z : Fin 1) : idx_main_v33 (ix3 b s z) = ix2 b s := funext fun a => Fin.ext (by match a with | ⟨0, _⟩ => rfl | ⟨1, _⟩ => rfl)
theorem idx_v37 (b : Fin 4) (s : Fin 2048) (h : Fin 5632) : idx_main_v37 (ix3 b s h) = ix3 b s (0 : Fin 1) := funext fun a => Fin.ext (by match a with | ⟨0, _⟩ => rfl | ⟨1, _⟩ => rfl | ⟨2, _⟩ => rfl)
theorem idx_v41 (b : Fin 4) (s : Fin 2048) (h : Fin 5632) : idx_main_v41 (ix3 b s h) = ix3 b s (0 : Fin 1) := funext fun a => Fin.ext (by match a with | ⟨0, _⟩ => rfl | ⟨1, _⟩ => rfl | ⟨2, _⟩ => rfl)
theorem lidx_v43 (b : Fin 4) (s : Fin 2048) (d : Fin 2048) (h : Fin 5632) : lidx_main_v43 (ix3 b s d) h = ix3 b s h := funext fun a => Fin.ext (by match a with | ⟨0, _⟩ => rfl | ⟨1, _⟩ => rfl | ⟨2, _⟩ => rfl)
theorem ridx_v43 (b : Fin 4) (s : Fin 2048) (d : Fin 2048) (h : Fin 5632) : ridx_main_v43 (ix3 b s d) h = ix2 d h := funext fun a => Fin.ext (by match a with | ⟨0, _⟩ => rfl | ⟨1, _⟩ => rfl)

/-! ## The row maximum of the absolute values -/

/-- From −∞ the maximum-reduce of |y| over the last axis, at row (b, s), is the largest |y| of that row. -/
theorem absMax_2048 (y : FVec Ideal S4x2048x2048 .f32) (b : Fin 4) (s : Fin 2048) :
    Host.reduce FloatOps.maximumf (Host.absf (F := Ideal) y) (constant (F := Ideal) S_ .f32 0xFF800000#32)
        reducesTo_S4x2048x2048_S4x2048_d2 h_S_ (ix2 b s)
      = Cert.Spec.absMax (fun k : Fin 2048 => y (ix3 b s k)) := by
  have h : S4x2048x2048.Reduces [2] S4x2048 := by decide
  rw [Host.reduce_eq_fold_single FloatOps.maximumf _ _ reducesTo_S4x2048x2048_S4x2048_d2 h h_S_]
  have hf : (Host.absf (F := Ideal) y ∘ h.lift (ix2 b s)) = fun k : Fin 2048 => max (y (ix3 b s k)) (-(y (ix3 b s k))) :=
    funext fun k => by
      show Host.absf (F := Ideal) y (h.lift (ix2 b s) k) = _
      rw [lift_2048 h b s k]; rfl
  unfold Cert.Spec.absMax
  exact congrArg (fun f => Finset.fold max (Ideal.ofBits .f32 0xFF800000#32) f (Finset.univ : Finset (Fin 2048))) hf

/-- The same on the hidden rows. -/
theorem absMax_5632 (y : FVec Ideal S4x2048x5632 .f32) (b : Fin 4) (s : Fin 2048) :
    Host.reduce FloatOps.maximumf (Host.absf (F := Ideal) y) (constant (F := Ideal) S_ .f32 0xFF800000#32)
        reducesTo_S4x2048x5632_S4x2048_d2 h_S_ (ix2 b s)
      = Cert.Spec.absMax (fun k : Fin 5632 => y (ix3 b s k)) := by
  have h : S4x2048x5632.Reduces [2] S4x2048 := by decide
  rw [Host.reduce_eq_fold_single FloatOps.maximumf _ _ reducesTo_S4x2048x5632_S4x2048_d2 h h_S_]
  have hf : (Host.absf (F := Ideal) y ∘ h.lift (ix2 b s)) = fun k : Fin 5632 => max (y (ix3 b s k)) (-(y (ix3 b s k))) :=
    funext fun k => by
      show Host.absf (F := Ideal) y (h.lift (ix2 b s) k) = _
      rw [lift_5632 h b s k]; rfl
  unfold Cert.Spec.absMax
  exact congrArg (fun f => Finset.fold max (Ideal.ofBits .f32 0xFF800000#32) f (Finset.univ : Finset (Fin 5632))) hf

/-! ## Step 1: the input rows quantised -/

theorem v1_eq (x0 : (⟨S4x2048x2048, .f32⟩ : BufTy).Contents (Elt Ideal)) (b : Fin 4) (s : Fin 2048) :
    val_main_v1 (F := Ideal) x0 (ix2 b s) = Cert.Spec.absMax (fun k : Fin 2048 => x0 (ix3 b s k)) := by
  unfold val_main_v1 val_main_v0 val_main_cst
  exact absMax_2048 x0 b s

/-- The scale 127 / max(ε, row maximum): the clip's maximum has its operands the other way round. -/
theorem v5_eq (x0 : (⟨S4x2048x2048, .f32⟩ : BufTy).Contents (Elt Ideal)) (b : Fin 4) (s : Fin 2048) (z : Fin 1) :
    val_main_v5 (F := Ideal) x0 (ix3 b s z) = Cert.Spec.scale (fun k : Fin 2048 => x0 (ix3 b s k)) := by
  rw [val_main_v5_apply, val_main_v4_apply, val_main_cst_1_apply, val_main_v3_apply, val_main_call0_v1_apply,
    val_main_call0_v0_apply, val_main_cst_0_apply, val_main_v2_apply, idx_v2, v1_eq]
  simp only [Ideal.hostDivf_def, Ideal.maximumf_def, Ideal.ofBits_def]
  rw [max_comm]; rfl

theorem v11_eq (x0 : (⟨S4x2048x2048, .f32⟩ : BufTy).Contents (Elt Ideal)) (b : Fin 4) (s : Fin 2048) (k : Fin 2048) :
    val_main_v11 (F := Ideal) x0 (ix3 b s k) = Cert.Spec.quant (fun k : Fin 2048 => x0 (ix3 b s k)) k := by
  rw [val_main_v11_apply, val_main_v9_apply, val_main_call2_v4_apply, val_main_call2_v3_apply, val_main_cst_3_apply,
    val_main_call2_v2_apply, val_main_call2_v1_apply, val_main_call2_v0_apply, val_main_cst_2_apply, val_main_v8_apply,
    val_main_v7_apply, val_main_v6_apply, val_main_v10_apply, idx_v6, idx_v10, v5_eq]
  simp only [Ideal.hostDivf_def, Ideal.minimumf_def, Ideal.maximumf_def, Ideal.hostUnary_roundeven_def, Ideal.mulf_def,
    Ideal.ofBits_def]
  rfl

/-! ## Step 2: the gated projections -/

theorem v12_eq (x0 : (⟨S4x2048x2048, .f32⟩ : BufTy).Contents (Elt Ideal)) (x1 : (⟨S11264x2048, .f32⟩ : BufTy).Contents (Elt Ideal)) (b : Fin 4) (s : Fin 2048) (J : Fin 11264) :
    val_main_v12 (F := Ideal) x0 x1 (ix3 b s J)
      = ∑ k : Fin 2048, val_main_v11 (F := Ideal) x0 (ix3 b s k) * x1 (ix2 J k) := by
  simp only [val_main_v12_apply, lidx_v12, ridx_v12]

theorem v17_eq (x0 : (⟨S4x2048x2048, .f32⟩ : BufTy).Contents (Elt Ideal)) (x1 : (⟨S11264x2048, .f32⟩ : BufTy).Contents (Elt Ideal)) (b : Fin 4) (s : Fin 2048) (j : Fin 5632) :
    val_main_v17 (F := Ideal) x0 x1 (ix3 b s j)
      = Cert.Spec.gate (fun k : Fin 2048 => val_main_v11 (F := Ideal) x0 (ix3 b s k)) x1 j := by
  rw [val_main_v17_apply, val_main_v16_apply, val_main_v15_apply, val_main_v13_apply, val_main_v14_apply,
    val_main_call3_v0_apply, val_main_call3_cst_apply, idx_v13, idx_v14, v12_eq, v12_eq]
  simp only [Ideal.mulf_def, Ideal.maximumf_def, Ideal.ofBits_def]
  rfl

/-! ## Step 3: the RMS normalisation -/

theorem v25_eq (x0 : (⟨S4x2048x2048, .f32⟩ : BufTy).Contents (Elt Ideal)) (x1 : (⟨S11264x2048, .f32⟩ : BufTy).Contents (Elt Ideal)) (b : Fin 4) (s : Fin 2048) (z : Fin 1) :
    val_main_v25 (F := Ideal) x0 x1 (ix3 b s z)
      = Ideal.rsqrt (Ideal.div (∑ h : Fin 5632, val_main_v17 (F := Ideal) x0 x1 (ix3 b s h) * val_main_v17 (F := Ideal) x0 x1 (ix3 b s h))
          Cert.Spec.c5632 + Cert.Spec.eps) := by
  have hs : (∑ k : Fin 5632, val_main_v18 (F := Ideal) x0 x1 (idx_main_v19 (ix2 b s) k))
      = ∑ h : Fin 5632, val_main_v17 (F := Ideal) x0 x1 (ix3 b s h) * val_main_v17 (F := Ideal) x0 x1 (ix3 b s h) :=
    Finset.sum_congr rfl fun k _ => by rw [idx_v19, val_main_v18_apply]; rfl
  rw [val_main_v25_apply, val_main_v24_apply, val_main_v22_apply, val_main_v20_apply, val_main_v21_apply,
    val_main_cst_5_apply, val_main_v23_apply, val_main_cst_6_apply, idx_v20, val_main_v19_apply, val_main_cst_4_apply, hs]
  rw [Ideal.ofBits_def, Ideal.ofBits_zero_f32, zero_add]
  rfl

theorem v30_eq (x0 : (⟨S4x2048x2048, .f32⟩ : BufTy).Contents (Elt Ideal)) (x1 : (⟨S11264x2048, .f32⟩ : BufTy).Contents (Elt Ideal)) (x3 : (⟨S5632, .f32⟩ : BufTy).Contents (Elt Ideal)) (b : Fin 4) (s : Fin 2048) (h : Fin 5632) :
    val_main_v30 (F := Ideal) x0 x1 x3 (ix3 b s h)
      = Cert.Spec.norm (fun j : Fin 5632 => val_main_v17 (F := Ideal) x0 x1 (ix3 b s j)) x3 h := by
  rw [val_main_v30_apply, val_main_v27_apply, val_main_v26_apply, val_main_v29_apply, val_main_v28_apply, idx_v26, idx_v29,
    idx_v28, v25_eq]
  simp only [Ideal.mulf_def]
  rfl

/-! ## Step 4: the hidden rows quantised -/

theorem v32_eq (x0 : (⟨S4x2048x2048, .f32⟩ : BufTy).Contents (Elt Ideal)) (x1 : (⟨S11264x2048, .f32⟩ : BufTy).Contents (Elt Ideal)) (x3 : (⟨S5632, .f32⟩ : BufTy).Contents (Elt Ideal)) (b : Fin 4) (s : Fin 2048) :
    val_main_v32 (F := Ideal) x0 x1 x3 (ix2 b s)
      = Cert.Spec.absMax (fun h : Fin 5632 => val_main_v30 (F := Ideal) x0 x1 x3 (ix3 b s h)) := by
  unfold val_main_v32 val_main_v31 val_main_cst_7
  exact absMax_5632 _ b s

theorem v36_eq (x0 : (⟨S4x2048x2048, .f32⟩ : BufTy).Contents (Elt Ideal)) (x1 : (⟨S11264x2048, .f32⟩ : BufTy).Contents (Elt Ideal)) (x3 : (⟨S5632, .f32⟩ : BufTy).Contents (Elt Ideal)) (b : Fin 4) (s : Fin 2048) (z : Fin 1) :
    val_main_v36 (F := Ideal) x0 x1 x3 (ix3 b s z)
      = Cert.Spec.scale (fun h : Fin 5632 => val_main_v30 (F := Ideal) x0 x1 x3 (ix3 b s h)) := by
  rw [val_main_v36_apply, val_main_v35_apply, val_main_cst_9_apply, val_main_v34_apply, val_main_call4_v1_apply,
    val_main_call4_v0_apply, val_main_cst_8_apply, val_main_v33_apply, idx_v33, v32_eq]
  simp only [Ideal.hostDivf_def, Ideal.maximumf_def, Ideal.ofBits_def]
  rw [max_comm]; rfl

theorem v42_eq (x0 : (⟨S4x2048x2048, .f32⟩ : BufTy).Contents (Elt Ideal)) (x1 : (⟨S11264x2048, .f32⟩ : BufTy).Contents (Elt Ideal)) (x3 : (⟨S5632, .f32⟩ : BufTy).Contents (Elt Ideal)) (b : Fin 4) (s : Fin 2048) (h : Fin 5632) :
    val_main_v42 (F := Ideal) x0 x1 x3 (ix3 b s h)
      = Cert.Spec.quant (fun h : Fin 5632 => val_main_v30 (F := Ideal) x0 x1 x3 (ix3 b s h)) h := by
  rw [val_main_v42_apply, val_main_v40_apply, val_main_call6_v4_apply, val_main_call6_v3_apply, val_main_cst_11_apply,
    val_main_call6_v2_apply, val_main_call6_v1_apply, val_main_call6_v0_apply, val_main_cst_10_apply, val_main_v39_apply,
    val_main_v38_apply, val_main_v37_apply, val_main_v41_apply, idx_v37, idx_v41, v36_eq]
  simp only [Ideal.hostDivf_def, Ideal.minimumf_def, Ideal.maximumf_def, Ideal.hostUnary_roundeven_def, Ideal.mulf_def,
    Ideal.ofBits_def]
  rfl

/-! ## Step 5: the projection, and the five steps chained -/

theorem v43_eq (x0 : (⟨S4x2048x2048, .f32⟩ : BufTy).Contents (Elt Ideal)) (x1 : (⟨S11264x2048, .f32⟩ : BufTy).Contents (Elt Ideal)) (x2 : (⟨S2048x5632, .f32⟩ : BufTy).Contents (Elt Ideal)) (x3 : (⟨S5632, .f32⟩ : BufTy).Contents (Elt Ideal)) (b : Fin 4) (s : Fin 2048) (d : Fin 2048) :
    val_main_v43 (F := Ideal) x0 x1 x2 x3 (ix3 b s d)
      = Cert.Spec.proj (fun h : Fin 5632 => val_main_v42 (F := Ideal) x0 x1 x3 (ix3 b s h)) x2 d := by
  simp only [val_main_v43_apply, lidx_v43, ridx_v43]
  rfl

/-- The reference's result is the specification's array. -/
theorem ref_eq (x0 : (⟨S4x2048x2048, .f32⟩ : BufTy).Contents (Elt Ideal)) (x1 : (⟨S11264x2048, .f32⟩ : BufTy).Contents (Elt Ideal)) (x2 : (⟨S2048x5632, .f32⟩ : BufTy).Contents (Elt Ideal)) (x3 : (⟨S5632, .f32⟩ : BufTy).Contents (Elt Ideal)) :
    Cert.ReferenceIdeal.Read.val_main_v43 (F := Ideal) x0 x1 x2 x3 = Cert.Spec.out x0 x1 x2 x3 := by
  funext i
  obtain ⟨b, s, d, rfl⟩ : ∃ (b : Fin 4) (s : Fin 2048) (d : Fin 2048), i = ix3 b s d := ⟨i 0, i 1, i 2, eq_ix3 i⟩
  have e1 : (fun k : Fin 2048 => val_main_v11 (F := Ideal) x0 (ix3 b s k))
      = Cert.Spec.quant (fun k : Fin 2048 => x0 (ix3 b s k)) := funext fun k => v11_eq x0 b s k
  have e2 : (fun j : Fin 5632 => val_main_v17 (F := Ideal) x0 x1 (ix3 b s j))
      = Cert.Spec.gate (Cert.Spec.quant (fun k : Fin 2048 => x0 (ix3 b s k))) x1 :=
    funext fun j => (v17_eq x0 x1 b s j).trans (by rw [e1])
  have e3 : (fun h : Fin 5632 => val_main_v30 (F := Ideal) x0 x1 x3 (ix3 b s h))
      = Cert.Spec.norm (Cert.Spec.gate (Cert.Spec.quant (fun k : Fin 2048 => x0 (ix3 b s k))) x1) x3 :=
    funext fun h => (v30_eq x0 x1 x3 b s h).trans (by rw [e2])
  have e4 : (fun h : Fin 5632 => val_main_v42 (F := Ideal) x0 x1 x3 (ix3 b s h))
      = Cert.Spec.quant (Cert.Spec.norm (Cert.Spec.gate (Cert.Spec.quant (fun k : Fin 2048 => x0 (ix3 b s k))) x1) x3) :=
    funext fun h => (v42_eq x0 x1 x3 b s h).trans (by rw [e3])
  rw [v43_eq, e4]
  rfl

end Cert.ReferenceIdeal.RefSpec

end
-- ==== Proof.lean ====
/-
  The certificate of a quantised gated feed-forward block: a four-stage kernel program (per-row quantisation; two
  projections against the halves of the first weight array, gated relu(·)² · (·); RMS normalisation and a second
  per-row quantisation; the projection against the second weight array) against its array-at-once reference.

  The two programs compute, row by row, the same five steps with the same operations in the same order
  (`Cert.Spec.row`): the kernel's tiling never splits a contraction or a row reduction, the two halves of the first
  weight array reach the kernel as two windows on one array where the reference slices its product, the format
  changes are the identity on the extended reals, and the only algebraic law between the two sides is the
  commutativity of `max` (the quantiser's floor is max(a, ε) on one side and max(ε, a) on the other). So the
  precondition (finite inputs) is never opened.

  * The frames of the word-level and the idealized kernel program: one text, generic in the float instance — the four
    regions' bodies run symbolically, each pipeline's proof data, and the launch over @main's six items
    (`Frame.frame`).
  * The frame of the reference: its run with the result dropped.
  * `preserves`: the ideal pass rewrote nothing.
  * `algebraic`: the kernel's result buffer ends at `Spec.out` of the arguments (`Val.result_eq` over the run's last
    boundary) and so does the reference's (`RunH.run`, `RefSpec.ref_eq`), the arguments agreeing.
-/
import proofs.«179057_j32478542693202_1_alg».proof.Defs
import proofs.«179057_j32478542693202_1_alg».proof.Proof.Gen.Kernel
import proofs.«179057_j32478542693202_1_alg».proof.Proof.Gen.KernelIdeal
import proofs.«179057_j32478542693202_1_alg».proof.Proof.Gen.ReferenceIdeal
import proofs.«179057_j32478542693202_1_alg».proof.Proof.Gen.Pre_finite_inputs
import proofs.«179057_j32478542693202_1_alg».proof.Proof.K.Fold
import proofs.«179057_j32478542693202_1_alg».proof.Proof.KI.Fold
import proofs.«179057_j32478542693202_1_alg».proof.Proof.KI.ValMain
import proofs.«179057_j32478542693202_1_alg».proof.Proof.RefRunH
import proofs.«179057_j32478542693202_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.RunH.run (F := Ideal) m ρ)

/-- The ideal pass rewrote no operation. -/
theorem preserves : Cert.preserves_Kernel_KernelIdeal := trivial

/-- Both result buffers end at `Spec.out` of the (agreeing) arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.KernelIdeal.Val.result_eq m c), (h c).2⟩)
      (Cert.KernelIdeal.Frame.run_result (F := Ideal) m ρ)
  · refine (θ_run Cert.ReferenceIdeal.defs _ _).mono (fun r h c => ⟨(h c).1.trans ?_, (h c).2⟩)
      (Cert.ReferenceIdeal.RunH.run (F := Ideal) m' ρ')
    rw [Cert.ReferenceIdeal.RefSpec.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
